-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S8192x512 .f32) (main_arg1 : FVec F S8192x8192 .f32) (main_arg2 : FVec F S512x512 .f32) (main_arg3 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S1x512 : Shape := ⟨2, ![1, 512]⟩
abbrev S1024x512 : Shape := ⟨2, ![1024, 512]⟩
abbrev S1024x2048 : Shape := ⟨2, ![1024, 2048]⟩
abbrev S2048x512 : Shape := ⟨2, ![2048, 512]⟩

abbrev nBuf : Space → Nat
  | .hbm => 7
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S1x512, .f32⟩
  | .hbm, ⟨5, _⟩ => ⟨S8192x512, .bf16⟩
  | .hbm, ⟨6, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | .local _ .vmem, ⟨6, _⟩ => ⟨S1024x2048, .f32⟩
  | .local _ .vmem, ⟨7, _⟩ => ⟨S1024x2048, .f32⟩
  | .local _ .vmem, ⟨8, _⟩ => ⟨S2048x512, .bf16⟩
  | .local _ .vmem, ⟨9, _⟩ => ⟨S2048x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  shapeCasts_S1024x512_S1024x512 : S1024x512.ShapeCasts S1024x512
  inb_S1024x2048_S1024x2048_0_0 : ∀ a, (![0, 0] : Fin 2 → Nat) a + S1024x2048.size a ≤ S1024x2048.size a
  h_S1024x2048 : 0 < S1024x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  dot_S1024x512_S512x512_S1024x512_1_1_0_0_n_n_wf : DotDims.WF S1024x512 S512x512 S1024x512 [1] [1] [0] [0] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .bf16 = 32 ∨ (Rect.block (s := S8192x512) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S8192x512.size a
  hwx1_1 : ∀ i : grid1.Coords, EltTy.bits .bf16 = 32 ∨ (Rect.block (s := S8192x512) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x512.size a
  hwx1_2 : ∀ i : grid1.Coords, EltTy.bits .f32 = 32 ∨ (Rect.block (s := S8192x512) S1024x512.size (cc1_transform_2 i) (hinb1_2 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S1x512 : Shape := ⟨2, ![1, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S8192x512, .f32⟩
  | .hbm, ⟨5, _⟩ => ⟨S1x512, .f32⟩
  | .hbm, ⟨6, _⟩ => ⟨S8192x512, .f32⟩
  | .hbm, ⟨7, _⟩ => ⟨S8192x512, .f32⟩
  | .hbm, ⟨8, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S8192x512_S512x512_S8192x512_1_1_0_0_n_n_wf : DotDims.WF S8192x512 S512x512 S8192x512 [1] [1] [0] [0] [] []
  dot_S8192x8192_S8192x512_S8192x512_1_0_0_1_n_n_wf : DotDims.WF S8192x8192 S8192x512 S8192x512 [1] [0] [0] [1] [] []

variable [Facts₀]

def dot_S8192x512_S512x512_S8192x512_1_1_0_0_n_n : DotDims S8192x512 S512x512 S8192x512 where
  lhsContracting := [1]
  rhsContracting := [1]
  lhsNonContracting := [0]
  rhsNonContracting := [0]
  lhsBatch := []
  rhsBatch := []
  wf := dot_S8192x512_S512x512_S8192x512_1_1_0_0_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.Kernel.Data.lean ====
/-
  The two regions of the program, as data.

  Region 0 computes one block of 1024 rows of h = x·Wᵀ + b at each of its 8 points: the point's block of x, the whole of W and
  the whole bias row are loaded, and the block of h is stored once, whole. Region 1 walks an 8 × 4 grid, the second coordinate
  fastest: at point (i, k) it loads the (i, k) block of adj (1024 × 2048) and the k-th block of h (2048 × 512), and keeps in a
  scratch buffer the running sum acc ← acc + adj_blk · h_blk, the scratch being zeroed first when k = 0; when k = 3 the scratch is
  copied to the output's block i. So what the scratch holds after point n is defined by recursion on n: from zero at the points
  ≡ 0 (mod 4), from what point n − 1 left otherwise.

  Here: each window's block at a point, what the bodies leave, the invariant that carries the scratch from point to point, and
  the pipelines' proof data over the contents V the region finds in the unscoped buffers. Everything is stated at any float
  instance.
-/
import proofs.«143857_j6597069766680_1_alg».proof.Proof.Gen.Kernel.Launch
import proofs.«143857_j6597069766680_1_alg».proof.Proof.Gen.Kernel.Skeleton
import proofs.«143857_j6597069766680_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Two

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's unscoped buffers when a region is entered
variable (V : (c : Dev nD) → (b : Ref sig .tc) → Buf (Elt F) ((c : Thread nD τ).loc b))

/-! # Region 0: a block of rows of h = x·Wᵀ + b per point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of a 1024 × 512 buffer, of the 512 × 512 one, of the 1 × 512 one. -/
abbrev rX : Rect S1024x512 := Rect.unit (s := S1024x512) ![0, 0] S1024x512.size inb_S1024x512_S1024x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0

/-- What the body leaves in the output's staging buffer: its one store, of the product-plus-bias of the three loads. -/
def out0_3 (x0 : Vec F S1024x512 .f32) (x1 : Vec F S512x512 .f32) (x2 : Vec F S1x512 .f32) : Vec F S1024x512 .bf16 :=
  View.canon [⟨rX, k0_pay1 (View.ld x0 rX) (View.ld x1 rW) (View.ld x2 rB)⟩]

/-- That store is of the whole buffer. -/
theorem cover0_3 (p0 : Vec F S1024x512 .bf16) (y : S1024x512.Idx) :
    ∃ pc ∈ ([⟨rX, p0⟩] : List (View.Piece (Elt F) S1024x512 .bf16)), y ∈ pc.1.set :=
  View.cover_of_tiled [⟨rX, p0⟩] S1024x512.size (by rfl) y

/-- Region 0's proof data: the arrays as found; each input's buffer left at its block, the output's at `out0_3` of the three
    input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! # Region 1: the running sum over the blocks of the contracted axis -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch buffer that holds the running sum. -/
abbrev scM1 : Memref sig .tc .vmem S1024x512 .f32 := Memref.whole cc1_scratch0

/-- What the scratch holds after point `n`: the point's product added to zero where the second coordinate is 0
    (`n ≡ 0 mod 4`), to what point `n − 1` left elsewhere. -/
def acc1 (c : Dev nD) : (n : ℕ) → (hn : n < cfg1.N) → Vec F S1024x512 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

theorem acc1_reset (c : Dev nD) (t : Fin cfg1.N) (h0 : t.val % 4 = 0) :
    acc1 V c t.val t.isLt = k1_pay2 (iblk1 V c 0 t) (iblk1 V c 1 t) (k1_pay1 (F := F)) := by
  obtain ⟨n, hn⟩ := t
  cases n with
  | zero => rfl
  | succ n => exact if_pos h0

theorem acc1_step (c : Dev nD) (t : Fin cfg1.N) (h0 : ¬ t.val % 4 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h0
  | succ n => exact if_neg h0

/-- The core's scoped buffers other than region 1's staging buffers, the scratch at `S`: region 0's six staging buffers at
    some contents each, then the scratch. -/
def scoped1 (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ S)

/-- The class invariant of region 1 spelled out: the scoped rest with the scratch at some contents, and the generator register. -/
theorem PhiA1_eq (c : Dev nD) :
    (Pipeline.ΦA spec1 c : sProp 𝕄)
      = iprop(scoped1 (F := F) c (iprop(∃ d, owns (c : Thread nD τ) scM1 fullShare d)) ∗ (∃ r, prngReg c r)) := by
  unfold Pipeline.ΦA scoped1; rw [scopedRest1_eq]; simp only [scM1, owns_whole]; try rfl

/-- The invariant before position `n`: before the first point the scratch holds anything; afterwards what the point before left. -/
def PhiS (c : Dev nD) : (n : ℕ) → n ≤ cfg1.N → sProp 𝕄
  | 0, _ => Pipeline.ΦA spec1 c
  | n + 1, hn => iprop(scoped1 (F := F) c (owns (c : Thread nD τ) scM1 fullShare (acc1 V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scoped1 (F := F) c (owns (c : Thread nD τ) scM1 fullShare (acc1 V c n hn)) ∗ (∃ r, prngReg c r)) := rfl

theorem PhiS_pos (c : Dev nD) (n : ℕ) (h : n ≤ cfg1.N) (hz : n ≠ 0) :
    PhiS V c n h = iprop(scoped1 (F := F) c (owns (c : Thread nD τ) scM1 fullShare (acc1 V c (n - 1) (by omega))) ∗ (∃ r, prngReg c r)) := by
  cases n with
  | zero => exact absurd rfl hz
  | succ n => rfl

/-- Region 1's proof data: the arrays as found; each input's buffer left at its block, the output's at the running sum (read
    only at the points ≡ 3 mod 4, where it is written back); the invariant carrying the scratch; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

end Cert.Kernel.Two

end
-- ==== Proof.Kernel.LinearBody.lean ====
/-
  Region 0's body at a point: with the three input buffers holding the point's block of x, the whole of W and the bias row,
  the body stores the block of h = x·Wᵀ + b into the output's buffer and touches nothing else.
-/
import proofs.«143857_j6597069766680_1_alg».proof.Proof.Kernel.Data

set_option maxRecDepth 16384

noncomputable section

namespace Cert.Kernel.Two

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's unscoped buffers when a region is entered
variable (V : (c : Dev nD) → (b : Ref sig .tc) → Buf (Elt F) ((c : Thread nD τ).loc b))

/-! ## What the body finds in the three input buffers -/

/-- The buffer of x holds the point's block of x, for any proof data over the arrays as found whose body leaves the block in
    place: the window is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The buffer of W holds the whole of W at every point: fetched at the first point only, and the block index never moves, so
    the block left in place at one point is the next point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The buffer of the bias row holds the row at every point, in the same way. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's triple -/

set_option maxHeartbeats 1000000 in
/-- The body on whole buffers, the three inputs' at read contents x0, x1, x2 and the output's at anything, runs to the
    continuation holding the inputs' as they were and the output's at the one store's payload: three loads, a load of the
    output's buffer that is not used, and one store of the whole buffer. -/
theorem sound_kernel0 (c : Dev nD) (E : Set ℕ) (i : grid0.Coords)
    (arg1 : Memref sig .tc .vmem S1024x512 .f32) (harg1 : arg1.IsWhole)
    (arg2 : Memref sig .tc .vmem S512x512 .f32) (harg2 : arg2.IsWhole)
    (arg3 : Memref sig .tc .vmem S1x512 .f32) (harg3 : arg3.IsWhole)
    (arg4 : Memref sig .tc .vmem S1024x512 .bf16) (harg4 : arg4.IsWhole)
    (x0 : Vec F S1024x512 .f32) (x1 : Vec F S512x512 .f32) (x2 : Vec F S1x512 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the core owes
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Two

end
-- ==== Proof.Kernel.AggCases.lean ====
/-
  What region 1's three cases share: the body's two branch conditions as functions of the grid point, decided over the grid (the
  first holds exactly at the points ≡ 0 mod 4, where the scratch is zeroed; the second exactly at the points ≡ 3 mod 4, where the
  scratch is copied out), where the output window is idle (everywhere but at the points ≡ 3 mod 4, and there it is written
  back), and the names of the staging memrefs the body is called with.
-/
import proofs.«143857_j6597069766680_1_alg».proof.Proof.Kernel.Data

set_option maxRecDepth 16384

noncomputable section

namespace Cert.Kernel.Two

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch condition (zero the scratch), from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second branch condition (copy the scratch out), from the grid coordinates. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-- Each window's current staging memref at point `t`, as the pipeline passes it, and its wholeness. -/
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
/-- The scratch, through which its contents are stated. -/
abbrev VS1 : View sig .tc .vmem S1024x512 .f32 := scM1.view
/-- One staging buffer of the output window, through which its contents are stated. -/
abbrev VO1 : View sig .tc .vmem S1024x512 .f32 := (Memref.whole cc1_stg2_0 : Memref sig .tc .vmem S1024x512 .f32).view

end Cert.Kernel.Two

end
-- ==== Proof.Kernel.AggRunA.lean ====
/-
  Region 1's body where the second grid coordinate is 0: the scratch is zeroed, the point's product of the adj block and the h
  block is added to it and stored back; the output's buffer is not touched. The pieces the scratch ends with are found by
  running the body.
-/
import proofs.«143857_j6597069766680_1_alg».proof.Proof.Kernel.AggCases

set_option maxRecDepth 16384

noncomputable section

namespace Cert.Kernel.Two

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the scratch in the first case, with the run that finds them: on whole memrefs, the two
    inputs' at their contents, the output's handed back untouched, the scratch at anything. -/
noncomputable def kernelRun1_A (c : Dev nD) (i : grid1.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x2048 .f32) (x1 : Vec F S2048x512 .bf16) :
    { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_kernel i arg2 harg2 arg3 harg3 arg4 harg4 arg5 harg5) K } := by
  refine ⟨?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Two

end
-- ==== Proof.Kernel.AggRunB.lean ====
/-
  Region 1's body where the second grid coordinate is 1 or 2: the point's product of the adj block and the h block is added to
  what the scratch held and stored back; the output's buffer is not touched.
-/
import proofs.«143857_j6597069766680_1_alg».proof.Proof.Kernel.AggCases

set_option maxRecDepth 16384

noncomputable section

namespace Cert.Kernel.Two

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the scratch in the second case, with the run that finds them: the two inputs' memrefs
    at their contents, the output's handed back untouched, the scratch at what the point before left. -/
noncomputable def kernelRun1_B (c : Dev nD) (i : grid1.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x2048 .f32) (x1 : Vec F S2048x512 .bf16) (xs0 : Vec F S1024x512 .f32) :
    { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_kernel i arg2 harg2 arg3 harg3 arg4 harg4 arg5 harg5) K } := by
  refine ⟨?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Two

end
-- ==== Proof.Kernel.AggRunC.lean ====
/-
  Region 1's body where the second grid coordinate is 3: the point's product is added to what the scratch held and stored back,
  and the scratch is then copied, whole, to the output's buffer.
-/
import proofs.«143857_j6597069766680_1_alg».proof.Proof.Kernel.AggCases

set_option maxRecDepth 16384

noncomputable section

namespace Cert.Kernel.Two

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's buffer and in the scratch in the third case, with the run that finds
    them: the two inputs' memrefs at their contents, the output's at anything, the scratch at what the point before left. -/
noncomputable def kernelRun1_C (c : Dev nD) (i : grid1.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x2048 .f32) (x1 : Vec F S2048x512 .bf16) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_kernel i arg2 harg2 arg3 harg3 arg4 harg4 arg5 harg5) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Two

end
-- ==== Proof.Kernel.AggBody.lean ====
/-
  Region 1's body at a point, in its three cases (second grid coordinate 0: the scratch is zeroed, then the point's product is
  added; 1 or 2: the product is added to what the point before left; 3: the same, and the scratch is copied to the output's
  buffer), and how the invariant that carries the scratch is entered and left.

  In each case the pieces the run found cover the scratch (one whole-buffer store comes last), so what the scratch holds afterwards
  is that last store's payload: the accumulation step applied to the two input blocks and to what the scratch held (the zero
  array in the first case, where the step reads back the zeroing store). In the third case the output's buffer receives the
  read-back of that same store. These are the running sum's defining equations, so the invariant is re-established.
-/
import proofs.«143857_j6597069766680_1_alg».proof.Proof.Kernel.AggRunA
import proofs.«143857_j6597069766680_1_alg».proof.Proof.Kernel.AggRunB
import proofs.«143857_j6597069766680_1_alg».proof.Proof.Kernel.AggRunC
import Idealize.ShloMosaic.Lib.Pipeline.Value

set_option maxRecDepth 16384

noncomputable section

namespace Cert.Kernel.Two

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's unscoped buffers when a region is entered
variable (V : (c : Dev nD) → (b : Ref sig .tc) → Buf (Elt F) ((c : Thread nD τ).loc b))

/-- The zero offsets, however spelt. -/
theorem hz : (![0, 0] : Fin 2 → Nat) = fun _ => 0 := funext fun a => by fin_cases a <;> rfl

/-! ## What each case leaves -/

theorem scover1_A (c : Dev nD) (i : grid1.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x2048 .f32) (x1 : Vec F S2048x512 .bf16) (y : S1024x512.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S1024x512.size (by sl_kernel_rfl) y

/-- First case: the scratch ends at the step applied to the zero array. -/
theorem sout1_A (c : Dev nD) (i : grid1.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x2048 .f32) (x1 : Vec F S2048x512 .bf16) :
    VS1.read (Elt F) (VS1.writes (Elt F) VS1.junk (kernelRun1_A c i arg2 harg2 arg3 harg3 arg4 harg4 arg5 harg5 hc0 hc1 x0 x1).1)
      = k1_pay2 x0 x1 (k1_pay1 (F := F)) := by
  rw [View.read_writes_eq_canon _ _ _ (scover1_A c i arg2 harg2 arg3 harg3 arg4 harg4 arg5 harg5 hc0 hc1 x0 x1)]
  unfold kernelRun1_A
  dsimp only
  sl_unfold_words
  first
    | rw [View.canon_cons_unit_zero (S := S1024x512) hz]
    | rw [View.canon_unit_zero (S := S1024x512) hz]
  simp only [View.readCov_unit_zero (S := S1024x512) _ hz, View.readAt_eq_ld, Memref.IsWhole.read_unread,
    View.ld_unit_zero (S := S1024x2048) hz, View.ld_unit_zero (S := S2048x512) hz, View.ld_unit_zero (S := S1024x512) hz]

theorem scover1_B (c : Dev nD) (i : grid1.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x2048 .f32) (x1 : Vec F S2048x512 .bf16) (xs0 : Vec F S1024x512 .f32) (y : S1024x512.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S1024x512.size (by sl_kernel_rfl) y

/-- Second case: the scratch ends at the step applied to what it held. -/
theorem sout1_B (c : Dev nD) (i : grid1.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x2048 .f32) (x1 : Vec F S2048x512 .bf16) (xs0 : Vec F S1024x512 .f32) :
    VS1.read (Elt F) (VS1.writes (Elt F) VS1.junk (kernelRun1_B c i arg2 harg2 arg3 harg3 arg4 harg4 arg5 harg5 hc0 hc1 x0 x1 xs0).1)
      = k1_pay2 x0 x1 xs0 := by
  rw [View.read_writes_eq_canon _ _ _ (scover1_B c i arg2 harg2 arg3 harg3 arg4 harg4 arg5 harg5 hc0 hc1 x0 x1 xs0)]
  unfold kernelRun1_B
  dsimp only
  sl_unfold_words
  first
    | rw [View.canon_cons_unit_zero (S := S1024x512) hz]
    | rw [View.canon_unit_zero (S := S1024x512) hz]
  simp only [View.readCov_unit_zero (S := S1024x512) _ hz, View.readAt_eq_ld, Memref.IsWhole.read_unread,
    View.ld_unit_zero (S := S1024x2048) hz, View.ld_unit_zero (S := S2048x512) hz, View.ld_unit_zero (S := S1024x512) hz]

theorem scover1_C (c : Dev nD) (i : grid1.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x2048 .f32) (x1 : Vec F S2048x512 .bf16) (xs0 : Vec F S1024x512 .f32) (y : S1024x512.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x512.size (by sl_kernel_rfl) y

/-- Third case: the scratch ends at the step applied to what it held, -/
theorem sout1_C (c : Dev nD) (i : grid1.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x2048 .f32) (x1 : Vec F S2048x512 .bf16) (xs0 : Vec F S1024x512 .f32) :
    VS1.read (Elt F) (VS1.writes (Elt F) VS1.junk (kernelRun1_C c i arg2 harg2 arg3 harg3 arg4 harg4 arg5 harg5 hc0 hc1 x0 x1 xs0).2.1)
      = k1_pay2 x0 x1 xs0 := by
  rw [View.read_writes_eq_canon _ _ _ (scover1_C c i arg2 harg2 arg3 harg3 arg4 harg4 arg5 harg5 hc0 hc1 x0 x1 xs0)]
  unfold kernelRun1_C
  dsimp only
  sl_unfold_words
  first
    | rw [View.canon_cons_unit_zero (S := S1024x512) hz]
    | rw [View.canon_unit_zero (S := S1024x512) hz]
  simp only [View.readCov_unit_zero (S := S1024x512) _ hz, View.readAt_eq_ld, Memref.IsWhole.read_unread,
    View.ld_unit_zero (S := S1024x2048) hz, View.ld_unit_zero (S := S2048x512) hz, View.ld_unit_zero (S := S1024x512) hz]

theorem cover1_C_2 (c : Dev nD) (i : grid1.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x2048 .f32) (x1 : Vec F S2048x512 .bf16) (xs0 : Vec F S1024x512 .f32) (y : S1024x512.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x512.size (by sl_kernel_rfl) y

/-- and the output's buffer at the same array: the copy reads the scratch back. -/
theorem out1_C_2 (c : Dev nD) (i : grid1.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x2048 .f32) (x1 : Vec F S2048x512 .bf16) (xs0 : Vec F S1024x512 .f32) :
    VO1.read (Elt F) (VO1.writes (Elt F) VO1.junk (kernelRun1_C c i arg2 harg2 arg3 harg3 arg4 harg4 arg5 harg5 hc0 hc1 x0 x1 xs0).1)
      = k1_pay2 x0 x1 xs0 := by
  rw [View.read_writes_eq_canon _ _ _ (cover1_C_2 c i arg2 harg2 arg3 harg3 arg4 harg4 arg5 harg5 hc0 hc1 x0 x1 xs0)]
  unfold kernelRun1_C
  dsimp only
  sl_unfold_words
  first
    | rw [View.canon_cons_unit_zero (S := S1024x512) hz]
    | rw [View.canon_unit_zero (S := S1024x512) hz]
  simp only [View.readCov_unit_zero (S := S1024x512) _ hz, View.readAt_eq_ld, Memref.IsWhole.read_unread,
    View.ld_unit_zero (S := S1024x2048) hz, View.ld_unit_zero (S := S2048x512) hz, View.ld_unit_zero (S := S1024x512) hz]

/-! ## The inputs' buffers hold their blocks at every point -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the point's residue mod 4 says which case it is in; the invariant
    hands the body the scratch at what the point before left (at anything at the very first point) and takes it back at this
    point's running sum; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · by_cases h1 : t.val % 4 = 3
    · exfalso; omega
    · rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [acc1_reset V c t h0]
      by_cases hz0 : t.val = 0
      · rw [PhiS_castSucc V c t, PhiS_zero V c _ _ hz0, PhiA1_eq]; unfold scoped1
        iintro ⟨⟨⟨R1, R2, R3, R4, R5, R6, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2 _ Set.univ _)
        isplitl [H0]; · iexact H0
        isplitl [H1]; · iexact H1
        isplitl [H2]; · iexact H2
        isplitl [HS0]; · iexact HS0
        iintro ⟨H0, H1, H2, ⟨%es0, HS0⟩⟩
        isplitl [R1 R2 R3 R4 R5 R6 HS0 Hg]
        · isplitr [Hg]
          · isplitl [R1]; · iexact R1
            isplitl [R2]; · iexact R2
            isplitl [R3]; · iexact R3
            isplitl [R4]; · iexact R4
            isplitl [R5]; · iexact R5
            isplitl [R6]; · iexact R6
            unfold owns; iexists _; isplitr
            swap; · iexact HS0
            ipureintro; exact (View.read_writes_of_cover _ _ VS1 VS1.junk _ (scover1_A c _ _ _ _ _ _ _ _ _ _ _ _ _)).trans (sout1_A c _ _ _ _ _ _ _ _ _ _ _ _ _)
          iexact Hg
        isplitl [Ho]; · iexact Ho
        isplitl [H0]; · iexact H0
        isplitl [H1]; · iexact H1
        iexists _; iexact H2
      · rw [PhiS_castSucc V c t, PhiS_pos V c _ _ hz0]; unfold scoped1
        iintro ⟨⟨⟨R1, R2, R3, R4, R5, R6, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [R1 R2 R3 R4 R5 R6 HS0 Hg]
        · isplitr [Hg]
          · isplitl [R1]; · iexact R1
            isplitl [R2]; · iexact R2
            isplitl [R3]; · iexact R3
            isplitl [R4]; · iexact R4
            isplitl [R5]; · iexact R5
            isplitl [R6]; · iexact R6
            unfold owns; iexists _; isplitr
            swap; · iexact HS0
            ipureintro; exact (View.read_writes_of_cover _ _ VS1 VS1.junk _ (scover1_A c _ _ _ _ _ _ _ _ _ _ _ _ _)).trans (sout1_A c _ _ _ _ _ _ _ _ _ _ _ _ _)
          iexact Hg
        isplitl [Ho]; · iexact Ho
        isplitl [H0]; · iexact H0
        isplitl [H1]; · iexact H1
        iexists _; iexact H2
  · have hz0 : t.val ≠ 0 := fun e => h0 (by rw [e])
    by_cases h1 : t.val % 4 = 3
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [acc1_step V c t h0]
      rw [PhiS_castSucc V c t, PhiS_pos V c _ _ hz0]; unfold scoped1
      iintro ⟨⟨⟨R1, R2, R3, R4, R5, R6, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [R1 R2 R3 R4 R5 R6 HS0 Hg]
      · isplitr [Hg]
        · isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact (View.read_writes_of_cover _ _ VS1 VS1.junk _ (scover1_C c _ _ _ _ _ _ _ _ _ _ _ _ _ _)).trans (sout1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact (View.read_writes_of_cover _ _ VO1 VO1.junk _ (cover1_C_2 c _ _ _ _ _ _ _ _ _ _ _ _ _ _)).trans (out1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [acc1_step V c t h0]
      rw [PhiS_castSucc V c t, PhiS_pos V c _ _ hz0]; unfold scoped1
      iintro ⟨⟨⟨R1, R2, R3, R4, R5, R6, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [R1 R2 R3 R4 R5 R6 HS0 Hg]
      · isplitr [Hg]
        · isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact (View.read_writes_of_cover _ _ VS1 VS1.junk _ (scover1_B c _ _ _ _ _ _ _ _ _ _ _ _ _ _)).trans (sout1_B c _ _ _ _ _ _ _ _ _ _ _ _ _ _)
        iexact Hg
      isplitl [Ho]; · iexact Ho
      isplitl [H0]; · iexact H0
      isplitl [H1]; · iexact H1
      iexists _; iexact H2

/-- The body obligation of region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: what the scratch holds is forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS V c t.val (Nat.le_of_lt_succ t.isLt) from rfl, PhiS_pos V c _ _ ht, PhiA1_eq]
  unfold scoped1
  iintro ⟨⟨H1, H2, H3, H4, H5, H6, HS0⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    iexists _; iexact HS0
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 32 := N_1; omega)

end Cert.Kernel.Two

end
-- ==== Proof.Kernel.Whole.lean ====
/-
  The run of the whole program: one reshape on the host (the bias vector into a 1 × 512 row), then region 0 (h = x·Wᵀ + b,
  block of rows by block of rows), then region 1 (out = adj·h, the running sum over the blocks of the contracted axis).

  The contents of every unscoped buffer at each boundary are a fold from the launch memory: after the reshape; after region 0,
  whose arrays are left at what its write-backs make of them and every other buffer as entered; after region 1 likewise. Each
  region is entered from the thread state "every unscoped buffer at the boundary's contents, the generator register at some
  state, nothing owed" and left at the next boundary's. Region 1's invariant is not the class's: it is entered from the class's
  (the scratch at anything) and gives the class's back after the last point (what the scratch holds forgotten). At the end
  every unscoped buffer is read off the last fold; the four arguments walk back through it to the launch memory.
-/
import proofs.«143857_j6597069766680_1_alg».proof.Proof.Kernel.LinearBody
import proofs.«143857_j6597069766680_1_alg».proof.Proof.Kernel.AggBody

set_option maxRecDepth 16384

noncomputable section

namespace Cert.Kernel.Two

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary: a fold through the program -/

/-- Core `c`'s buffers at launch. -/
abbrev W0 : Dev nD → Valuation τ sig (Elt F) := fun c b => (s₀ m ρ).mem ((c : Dev nD), b)
/-- After the reshape (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, which are region 1's entry contents: nothing runs
    between the two). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves, and every other buffer what it held at entry. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## What the fold holds at the buffers the value is read through

The reshape writes the bias row only; a region changes only its output's array (an input's array is left as entered). -/

/-- The reshape leaves x as launched. -/
theorem V1_main_arg0 (c : Dev nD) : V1 m ρ c main_arg0 = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
/-- The reshape leaves W as launched. -/
theorem V1_main_arg2 (c : Dev nD) : V1 m ρ c main_arg2 = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
/-- The bias row at region 0's entry is the launched bias vector, recast as 1 × 512. -/
theorem V1_main_v0 (c : Dev nD) : V1 m ρ c main_v0 = shapeCast S1x512 (m ((c : Thread nD τ).loc main_arg3)) shapeCasts_S512_S1x512 := by
  dsimp only [V1, W1, hostOps0]
  after_results
  rfl
/-- h at region 1's entry is what region 0's write-backs leave in its array. -/
theorem V2_main_v1 (c : Dev nD) : V2 m ρ c main_v1 = (dat0 (V1 m ρ) c).arrAt 3 cfg0.N := W2_arr m ρ c 3
/-- adj at region 1's entry is as launched: neither the reshape nor region 0 touches it. -/
theorem V2_main_arg1 (c : Dev nD) : V2 m ρ c main_arg1 = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
/-- The result's array at the end is what region 1's write-backs leave in it. -/
theorem W3_main_v2 (c : Dev nD) : W3 m ρ c (Proc.devRef .tc main_v2) = (dat1 (V2 m ρ) c).arrAt 2 cfg1.N := W3_arr m ρ c 2

/-! ## The arguments end as launched

The reshape writes none of them, and a region reads an argument through an input window or not at all, so the fold at an
argument's buffer walks back to the launch memory. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := V1_main_arg0 m ρ c
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = m ((c : Thread nD τ).loc main_arg1) := V2_main_arg1 m ρ c
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = m ((c : Thread nD τ).loc main_arg2) := V1_main_arg2 m ρ c
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! # The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape allocates no buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at
    some state. -/
abbrev Tₙ (c : Dev nD) : sProp 𝕄 := iprop(StableHlo.held (c : Thread nD τ) (Pipeline.ucRefs τ sig) (W3 m ρ c) ∗ ∃ r, prngReg c r)

/-! # The regions as segments -/

set_option backward.isDefEq.respectTransparency.types false in
/-- Region 0 over the thread state: entered from every unscoped buffer at `W1`, left at `W2`. Its arrays are split out of the
    unscoped buffers and put back at the exit contents; the generator register goes into the class's invariant and comes back;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3` (what the launch reads at the
    end). As region 0, but for its invariant: the class's invariant is assembled first and then weakened to the invariant before
    the first point (the scratch at anything); after the last point the invariant gives the class's back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine BIBase.Entails.trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # The program as segments, and the launch -/

/-- The program's three segments in order: the reshape from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of the segments. -/
theorem main_run (c : Dev nD) : main (F := F) c = Pipeline.Seg.run (segs m ρ) := (main_chain c).trans (by chain_rfl)

set_option backward.isDefEq.respectTransparency.types false in
/-- The run: at the compiled mesh, from any memory with zero counters, every weakly fair execution of the program on the
    TensorCores terminates, nothing faulting, and in every final state each unscoped buffer holds what the fold says. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: every weakly fair execution terminates, and every final state has the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.Kernel.Two

end
-- ==== Proof.KernelIdeal.Data.lean ====
/-
  The two regions of the program, as data.

  Region 0 computes one block of 1024 rows of h = x·Wᵀ + b at each of its 8 points: the point's block of x, the whole of W and
  the whole bias row are loaded, and the block of h is stored once, whole. Region 1 walks an 8 × 4 grid, the second coordinate
  fastest: at point (i, k) it loads the (i, k) block of adj (1024 × 2048) and the k-th block of h (2048 × 512), and keeps in a
  scratch buffer the running sum acc ← acc + adj_blk · h_blk, the scratch being zeroed first when k = 0; when k = 3 the scratch is
  copied to the output's block i. So what the scratch holds after point n is defined by recursion on n: from zero at the points
  ≡ 0 (mod 4), from what point n − 1 left otherwise.

  Here: each window's block at a point, what the bodies leave, the invariant that carries the scratch from point to point, and
  the pipelines' proof data over the contents V the region finds in the unscoped buffers. Everything is stated at any float
  instance.
-/
import proofs.«143857_j6597069766680_1_alg».proof.Proof.Gen.KernelIdeal.Launch
import proofs.«143857_j6597069766680_1_alg».proof.Proof.Gen.KernelIdeal.Skeleton
import proofs.«143857_j6597069766680_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's unscoped buffers when a region is entered
variable (V : (c : Dev nD) → (b : Ref sig .tc) → Buf (Elt F) ((c : Thread nD τ).loc b))

/-! # Region 0: a block of rows of h = x·Wᵀ + b per point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of a 1024 × 512 buffer, of the 512 × 512 one, of the 1 × 512 one. -/
abbrev rX : Rect S1024x512 := Rect.unit (s := S1024x512) ![0, 0] S1024x512.size inb_S1024x512_S1024x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0

/-- What the body leaves in the output's staging buffer: its one store, of the product-plus-bias of the three loads. -/
def out0_3 (x0 : Vec F S1024x512 .f32) (x1 : Vec F S512x512 .f32) (x2 : Vec F S1x512 .f32) : Vec F S1024x512 .bf16 :=
  View.canon [⟨rX, k0_pay1 (View.ld x0 rX) (View.ld x1 rW) (View.ld x2 rB)⟩]

/-- That store is of the whole buffer. -/
theorem cover0_3 (p0 : Vec F S1024x512 .bf16) (y : S1024x512.Idx) :
    ∃ pc ∈ ([⟨rX, p0⟩] : List (View.Piece (Elt F) S1024x512 .bf16)), y ∈ pc.1.set :=
  View.cover_of_tiled [⟨rX, p0⟩] S1024x512.size (by rfl) y

/-- Region 0's proof data: the arrays as found; each input's buffer left at its block, the output's at `out0_3` of the three
    input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! # Region 1: the running sum over the blocks of the contracted axis -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch buffer that holds the running sum. -/
abbrev scM1 : Memref sig .tc .vmem S1024x512 .f32 := Memref.whole cc1_scratch0

/-- What the scratch holds after point `n`: the point's product added to zero where the second coordinate is 0
    (`n ≡ 0 mod 4`), to what point `n − 1` left elsewhere. -/
def acc1 (c : Dev nD) : (n : ℕ) → (hn : n < cfg1.N) → Vec F S1024x512 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

theorem acc1_reset (c : Dev nD) (t : Fin cfg1.N) (h0 : t.val % 4 = 0) :
    acc1 V c t.val t.isLt = k1_pay2 (iblk1 V c 0 t) (iblk1 V c 1 t) (k1_pay1 (F := F)) := by
  obtain ⟨n, hn⟩ := t
  cases n with
  | zero => rfl
  | succ n => exact if_pos h0

theorem acc1_step (c : Dev nD) (t : Fin cfg1.N) (h0 : ¬ t.val % 4 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h0
  | succ n => exact if_neg h0

/-- The core's scoped buffers other than region 1's staging buffers, the scratch at `S`: region 0's six staging buffers at
    some contents each, then the scratch. -/
def scoped1 (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ S)

/-- The class invariant of region 1 spelled out: the scoped rest with the scratch at some contents, and the generator register. -/
theorem PhiA1_eq (c : Dev nD) :
    (Pipeline.ΦA spec1 c : sProp 𝕄)
      = iprop(scoped1 (F := F) c (iprop(∃ d, owns (c : Thread nD τ) scM1 fullShare d)) ∗ (∃ r, prngReg c r)) := by
  unfold Pipeline.ΦA scoped1; rw [scopedRest1_eq]; simp only [scM1, owns_whole]; try rfl

/-- The invariant before position `n`: before the first point the scratch holds anything; afterwards what the point before left. -/
def PhiS (c : Dev nD) : (n : ℕ) → n ≤ cfg1.N → sProp 𝕄
  | 0, _ => Pipeline.ΦA spec1 c
  | n + 1, hn => iprop(scoped1 (F := F) c (owns (c : Thread nD τ) scM1 fullShare (acc1 V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scoped1 (F := F) c (owns (c : Thread nD τ) scM1 fullShare (acc1 V c n hn)) ∗ (∃ r, prngReg c r)) := rfl

theorem PhiS_pos (c : Dev nD) (n : ℕ) (h : n ≤ cfg1.N) (hz : n ≠ 0) :
    PhiS V c n h = iprop(scoped1 (F := F) c (owns (c : Thread nD τ) scM1 fullShare (acc1 V c (n - 1) (by omega))) ∗ (∃ r, prngReg c r)) := by
  cases n with
  | zero => exact absurd rfl hz
  | succ n => rfl

/-- Region 1's proof data: the arrays as found; each input's buffer left at its block, the output's at the running sum (read
    only at the points ≡ 3 mod 4, where it is written back); the invariant carrying the scratch; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

end Cert.KernelIdeal.Two

end
-- ==== Proof.KernelIdeal.LinearBody.lean ====
/-
  Region 0's body at a point: with the three input buffers holding the point's block of x, the whole of W and the bias row,
  the body stores the block of h = x·Wᵀ + b into the output's buffer and touches nothing else.
-/
import proofs.«143857_j6597069766680_1_alg».proof.Proof.KernelIdeal.Data

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's unscoped buffers when a region is entered
variable (V : (c : Dev nD) → (b : Ref sig .tc) → Buf (Elt F) ((c : Thread nD τ).loc b))

/-! ## What the body finds in the three input buffers -/

/-- The buffer of x holds the point's block of x, for any proof data over the arrays as found whose body leaves the block in
    place: the window is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The buffer of W holds the whole of W at every point: fetched at the first point only, and the block index never moves, so
    the block left in place at one point is the next point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The buffer of the bias row holds the row at every point, in the same way. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's triple -/

set_option maxHeartbeats 1000000 in
/-- The body on whole buffers, the three inputs' at read contents x0, x1, x2 and the output's at anything, runs to the
    continuation holding the inputs' as they were and the output's at the one store's payload: three loads, a load of the
    output's buffer that is not used, and one store of the whole buffer. -/
theorem sound_kernel0 (c : Dev nD) (E : Set ℕ) (i : grid0.Coords)
    (arg1 : Memref sig .tc .vmem S1024x512 .f32) (harg1 : arg1.IsWhole)
    (arg2 : Memref sig .tc .vmem S512x512 .f32) (harg2 : arg2.IsWhole)
    (arg3 : Memref sig .tc .vmem S1x512 .f32) (harg3 : arg3.IsWhole)
    (arg4 : Memref sig .tc .vmem S1024x512 .bf16) (harg4 : arg4.IsWhole)
    (x0 : Vec F S1024x512 .f32) (x1 : Vec F S512x512 .f32) (x2 : Vec F S1x512 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the core owes
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Two

end
-- ==== Proof.KernelIdeal.AggCases.lean ====
/-
  What region 1's three cases share: the body's two branch conditions as functions of the grid point, decided over the grid (the
  first holds exactly at the points ≡ 0 mod 4, where the scratch is zeroed; the second exactly at the points ≡ 3 mod 4, where the
  scratch is copied out), where the output window is idle (everywhere but at the points ≡ 3 mod 4, and there it is written
  back), and the names of the staging memrefs the body is called with.
-/
import proofs.«143857_j6597069766680_1_alg».proof.Proof.KernelIdeal.Data

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch condition (zero the scratch), from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second branch condition (copy the scratch out), from the grid coordinates. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-- Each window's current staging memref at point `t`, as the pipeline passes it, and its wholeness. -/
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
/-- The scratch, through which its contents are stated. -/
abbrev VS1 : View sig .tc .vmem S1024x512 .f32 := scM1.view
/-- One staging buffer of the output window, through which its contents are stated. -/
abbrev VO1 : View sig .tc .vmem S1024x512 .f32 := (Memref.whole cc1_stg2_0 : Memref sig .tc .vmem S1024x512 .f32).view

end Cert.KernelIdeal.Two

end
-- ==== Proof.KernelIdeal.AggRunA.lean ====
/-
  Region 1's body where the second grid coordinate is 0: the scratch is zeroed, the point's product of the adj block and the h
  block is added to it and stored back; the output's buffer is not touched. The pieces the scratch ends with are found by
  running the body.
-/
import proofs.«143857_j6597069766680_1_alg».proof.Proof.KernelIdeal.AggCases

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the scratch in the first case, with the run that finds them: on whole memrefs, the two
    inputs' at their contents, the output's handed back untouched, the scratch at anything. -/
noncomputable def kernelRun1_A (c : Dev nD) (i : grid1.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x2048 .f32) (x1 : Vec F S2048x512 .bf16) :
    { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_kernel i arg2 harg2 arg3 harg3 arg4 harg4 arg5 harg5) K } := by
  refine ⟨?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Two

end
-- ==== Proof.KernelIdeal.AggRunB.lean ====
/-
  Region 1's body where the second grid coordinate is 1 or 2: the point's product of the adj block and the h block is added to
  what the scratch held and stored back; the output's buffer is not touched.
-/
import proofs.«143857_j6597069766680_1_alg».proof.Proof.KernelIdeal.AggCases

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the scratch in the second case, with the run that finds them: the two inputs' memrefs
    at their contents, the output's handed back untouched, the scratch at what the point before left. -/
noncomputable def kernelRun1_B (c : Dev nD) (i : grid1.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x2048 .f32) (x1 : Vec F S2048x512 .bf16) (xs0 : Vec F S1024x512 .f32) :
    { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_kernel i arg2 harg2 arg3 harg3 arg4 harg4 arg5 harg5) K } := by
  refine ⟨?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Two

end
-- ==== Proof.KernelIdeal.AggRunC.lean ====
/-
  Region 1's body where the second grid coordinate is 3: the point's product is added to what the scratch held and stored back,
  and the scratch is then copied, whole, to the output's buffer.
-/
import proofs.«143857_j6597069766680_1_alg».proof.Proof.KernelIdeal.AggCases

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's buffer and in the scratch in the third case, with the run that finds
    them: the two inputs' memrefs at their contents, the output's at anything, the scratch at what the point before left. -/
noncomputable def kernelRun1_C (c : Dev nD) (i : grid1.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x2048 .f32) (x1 : Vec F S2048x512 .bf16) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_kernel i arg2 harg2 arg3 harg3 arg4 harg4 arg5 harg5) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Two

end
-- ==== Proof.KernelIdeal.AggBody.lean ====
/-
  Region 1's body at a point, in its three cases (second grid coordinate 0: the scratch is zeroed, then the point's product is
  added; 1 or 2: the product is added to what the point before left; 3: the same, and the scratch is copied to the output's
  buffer), and how the invariant that carries the scratch is entered and left.

  In each case the pieces the run found cover the scratch (one whole-buffer store comes last), so what the scratch holds afterwards
  is that last store's payload: the accumulation step applied to the two input blocks and to what the scratch held (the zero
  array in the first case, where the step reads back the zeroing store). In the third case the output's buffer receives the
  read-back of that same store. These are the running sum's defining equations, so the invariant is re-established.
-/
import proofs.«143857_j6597069766680_1_alg».proof.Proof.KernelIdeal.AggRunA
import proofs.«143857_j6597069766680_1_alg».proof.Proof.KernelIdeal.AggRunB
import proofs.«143857_j6597069766680_1_alg».proof.Proof.KernelIdeal.AggRunC
import Idealize.ShloMosaic.Lib.Pipeline.Value

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's unscoped buffers when a region is entered
variable (V : (c : Dev nD) → (b : Ref sig .tc) → Buf (Elt F) ((c : Thread nD τ).loc b))

/-- The zero offsets, however spelt. -/
theorem hz : (![0, 0] : Fin 2 → Nat) = fun _ => 0 := funext fun a => by fin_cases a <;> rfl

/-! ## What each case leaves -/

theorem scover1_A (c : Dev nD) (i : grid1.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x2048 .f32) (x1 : Vec F S2048x512 .bf16) (y : S1024x512.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S1024x512.size (by sl_kernel_rfl) y

/-- First case: the scratch ends at the step applied to the zero array. -/
theorem sout1_A (c : Dev nD) (i : grid1.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x2048 .f32) (x1 : Vec F S2048x512 .bf16) :
    VS1.read (Elt F) (VS1.writes (Elt F) VS1.junk (kernelRun1_A c i arg2 harg2 arg3 harg3 arg4 harg4 arg5 harg5 hc0 hc1 x0 x1).1)
      = k1_pay2 x0 x1 (k1_pay1 (F := F)) := by
  rw [View.read_writes_eq_canon _ _ _ (scover1_A c i arg2 harg2 arg3 harg3 arg4 harg4 arg5 harg5 hc0 hc1 x0 x1)]
  unfold kernelRun1_A
  dsimp only
  sl_unfold_words
  first
    | rw [View.canon_cons_unit_zero (S := S1024x512) hz]
    | rw [View.canon_unit_zero (S := S1024x512) hz]
  simp only [View.readCov_unit_zero (S := S1024x512) _ hz, View.readAt_eq_ld, Memref.IsWhole.read_unread,
    View.ld_unit_zero (S := S1024x2048) hz, View.ld_unit_zero (S := S2048x512) hz, View.ld_unit_zero (S := S1024x512) hz]

theorem scover1_B (c : Dev nD) (i : grid1.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x2048 .f32) (x1 : Vec F S2048x512 .bf16) (xs0 : Vec F S1024x512 .f32) (y : S1024x512.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S1024x512.size (by sl_kernel_rfl) y

/-- Second case: the scratch ends at the step applied to what it held. -/
theorem sout1_B (c : Dev nD) (i : grid1.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x2048 .f32) (x1 : Vec F S2048x512 .bf16) (xs0 : Vec F S1024x512 .f32) :
    VS1.read (Elt F) (VS1.writes (Elt F) VS1.junk (kernelRun1_B c i arg2 harg2 arg3 harg3 arg4 harg4 arg5 harg5 hc0 hc1 x0 x1 xs0).1)
      = k1_pay2 x0 x1 xs0 := by
  rw [View.read_writes_eq_canon _ _ _ (scover1_B c i arg2 harg2 arg3 harg3 arg4 harg4 arg5 harg5 hc0 hc1 x0 x1 xs0)]
  unfold kernelRun1_B
  dsimp only
  sl_unfold_words
  first
    | rw [View.canon_cons_unit_zero (S := S1024x512) hz]
    | rw [View.canon_unit_zero (S := S1024x512) hz]
  simp only [View.readCov_unit_zero (S := S1024x512) _ hz, View.readAt_eq_ld, Memref.IsWhole.read_unread,
    View.ld_unit_zero (S := S1024x2048) hz, View.ld_unit_zero (S := S2048x512) hz, View.ld_unit_zero (S := S1024x512) hz]

theorem scover1_C (c : Dev nD) (i : grid1.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x2048 .f32) (x1 : Vec F S2048x512 .bf16) (xs0 : Vec F S1024x512 .f32) (y : S1024x512.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x512.size (by sl_kernel_rfl) y

/-- Third case: the scratch ends at the step applied to what it held, -/
theorem sout1_C (c : Dev nD) (i : grid1.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x2048 .f32) (x1 : Vec F S2048x512 .bf16) (xs0 : Vec F S1024x512 .f32) :
    VS1.read (Elt F) (VS1.writes (Elt F) VS1.junk (kernelRun1_C c i arg2 harg2 arg3 harg3 arg4 harg4 arg5 harg5 hc0 hc1 x0 x1 xs0).2.1)
      = k1_pay2 x0 x1 xs0 := by
  rw [View.read_writes_eq_canon _ _ _ (scover1_C c i arg2 harg2 arg3 harg3 arg4 harg4 arg5 harg5 hc0 hc1 x0 x1 xs0)]
  unfold kernelRun1_C
  dsimp only
  sl_unfold_words
  first
    | rw [View.canon_cons_unit_zero (S := S1024x512) hz]
    | rw [View.canon_unit_zero (S := S1024x512) hz]
  simp only [View.readCov_unit_zero (S := S1024x512) _ hz, View.readAt_eq_ld, Memref.IsWhole.read_unread,
    View.ld_unit_zero (S := S1024x2048) hz, View.ld_unit_zero (S := S2048x512) hz, View.ld_unit_zero (S := S1024x512) hz]

theorem cover1_C_2 (c : Dev nD) (i : grid1.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x2048 .f32) (x1 : Vec F S2048x512 .bf16) (xs0 : Vec F S1024x512 .f32) (y : S1024x512.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x512.size (by sl_kernel_rfl) y

/-- and the output's buffer at the same array: the copy reads the scratch back. -/
theorem out1_C_2 (c : Dev nD) (i : grid1.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x2048 .f32) (x1 : Vec F S2048x512 .bf16) (xs0 : Vec F S1024x512 .f32) :
    VO1.read (Elt F) (VO1.writes (Elt F) VO1.junk (kernelRun1_C c i arg2 harg2 arg3 harg3 arg4 harg4 arg5 harg5 hc0 hc1 x0 x1 xs0).1)
      = k1_pay2 x0 x1 xs0 := by
  rw [View.read_writes_eq_canon _ _ _ (cover1_C_2 c i arg2 harg2 arg3 harg3 arg4 harg4 arg5 harg5 hc0 hc1 x0 x1 xs0)]
  unfold kernelRun1_C
  dsimp only
  sl_unfold_words
  first
    | rw [View.canon_cons_unit_zero (S := S1024x512) hz]
    | rw [View.canon_unit_zero (S := S1024x512) hz]
  simp only [View.readCov_unit_zero (S := S1024x512) _ hz, View.readAt_eq_ld, Memref.IsWhole.read_unread,
    View.ld_unit_zero (S := S1024x2048) hz, View.ld_unit_zero (S := S2048x512) hz, View.ld_unit_zero (S := S1024x512) hz]

/-! ## The inputs' buffers hold their blocks at every point -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the point's residue mod 4 says which case it is in; the invariant
    hands the body the scratch at what the point before left (at anything at the very first point) and takes it back at this
    point's running sum; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · by_cases h1 : t.val % 4 = 3
    · exfalso; omega
    · rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [acc1_reset V c t h0]
      by_cases hz0 : t.val = 0
      · rw [PhiS_castSucc V c t, PhiS_zero V c _ _ hz0, PhiA1_eq]; unfold scoped1
        iintro ⟨⟨⟨R1, R2, R3, R4, R5, R6, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2 _ Set.univ _)
        isplitl [H0]; · iexact H0
        isplitl [H1]; · iexact H1
        isplitl [H2]; · iexact H2
        isplitl [HS0]; · iexact HS0
        iintro ⟨H0, H1, H2, ⟨%es0, HS0⟩⟩
        isplitl [R1 R2 R3 R4 R5 R6 HS0 Hg]
        · isplitr [Hg]
          · isplitl [R1]; · iexact R1
            isplitl [R2]; · iexact R2
            isplitl [R3]; · iexact R3
            isplitl [R4]; · iexact R4
            isplitl [R5]; · iexact R5
            isplitl [R6]; · iexact R6
            unfold owns; iexists _; isplitr
            swap; · iexact HS0
            ipureintro; exact (View.read_writes_of_cover _ _ VS1 VS1.junk _ (scover1_A c _ _ _ _ _ _ _ _ _ _ _ _ _)).trans (sout1_A c _ _ _ _ _ _ _ _ _ _ _ _ _)
          iexact Hg
        isplitl [Ho]; · iexact Ho
        isplitl [H0]; · iexact H0
        isplitl [H1]; · iexact H1
        iexists _; iexact H2
      · rw [PhiS_castSucc V c t, PhiS_pos V c _ _ hz0]; unfold scoped1
        iintro ⟨⟨⟨R1, R2, R3, R4, R5, R6, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [R1 R2 R3 R4 R5 R6 HS0 Hg]
        · isplitr [Hg]
          · isplitl [R1]; · iexact R1
            isplitl [R2]; · iexact R2
            isplitl [R3]; · iexact R3
            isplitl [R4]; · iexact R4
            isplitl [R5]; · iexact R5
            isplitl [R6]; · iexact R6
            unfold owns; iexists _; isplitr
            swap; · iexact HS0
            ipureintro; exact (View.read_writes_of_cover _ _ VS1 VS1.junk _ (scover1_A c _ _ _ _ _ _ _ _ _ _ _ _ _)).trans (sout1_A c _ _ _ _ _ _ _ _ _ _ _ _ _)
          iexact Hg
        isplitl [Ho]; · iexact Ho
        isplitl [H0]; · iexact H0
        isplitl [H1]; · iexact H1
        iexists _; iexact H2
  · have hz0 : t.val ≠ 0 := fun e => h0 (by rw [e])
    by_cases h1 : t.val % 4 = 3
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [acc1_step V c t h0]
      rw [PhiS_castSucc V c t, PhiS_pos V c _ _ hz0]; unfold scoped1
      iintro ⟨⟨⟨R1, R2, R3, R4, R5, R6, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [R1 R2 R3 R4 R5 R6 HS0 Hg]
      · isplitr [Hg]
        · isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact (View.read_writes_of_cover _ _ VS1 VS1.junk _ (scover1_C c _ _ _ _ _ _ _ _ _ _ _ _ _ _)).trans (sout1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact (View.read_writes_of_cover _ _ VO1 VO1.junk _ (cover1_C_2 c _ _ _ _ _ _ _ _ _ _ _ _ _ _)).trans (out1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [acc1_step V c t h0]
      rw [PhiS_castSucc V c t, PhiS_pos V c _ _ hz0]; unfold scoped1
      iintro ⟨⟨⟨R1, R2, R3, R4, R5, R6, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [R1 R2 R3 R4 R5 R6 HS0 Hg]
      · isplitr [Hg]
        · isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact (View.read_writes_of_cover _ _ VS1 VS1.junk _ (scover1_B c _ _ _ _ _ _ _ _ _ _ _ _ _ _)).trans (sout1_B c _ _ _ _ _ _ _ _ _ _ _ _ _ _)
        iexact Hg
      isplitl [Ho]; · iexact Ho
      isplitl [H0]; · iexact H0
      isplitl [H1]; · iexact H1
      iexists _; iexact H2

/-- The body obligation of region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: what the scratch holds is forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS V c t.val (Nat.le_of_lt_succ t.isLt) from rfl, PhiS_pos V c _ _ ht, PhiA1_eq]
  unfold scoped1
  iintro ⟨⟨H1, H2, H3, H4, H5, H6, HS0⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    iexists _; iexact HS0
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 32 := N_1; omega)

end Cert.KernelIdeal.Two

end
-- ==== Proof.KernelIdeal.Whole.lean ====
/-
  The run of the whole program: one reshape on the host (the bias vector into a 1 × 512 row), then region 0 (h = x·Wᵀ + b,
  block of rows by block of rows), then region 1 (out = adj·h, the running sum over the blocks of the contracted axis).

  The contents of every unscoped buffer at each boundary are a fold from the launch memory: after the reshape; after region 0,
  whose arrays are left at what its write-backs make of them and every other buffer as entered; after region 1 likewise. Each
  region is entered from the thread state "every unscoped buffer at the boundary's contents, the generator register at some
  state, nothing owed" and left at the next boundary's. Region 1's invariant is not the class's: it is entered from the class's
  (the scratch at anything) and gives the class's back after the last point (what the scratch holds forgotten). At the end
  every unscoped buffer is read off the last fold; the four arguments walk back through it to the launch memory.
-/
import proofs.«143857_j6597069766680_1_alg».proof.Proof.KernelIdeal.LinearBody
import proofs.«143857_j6597069766680_1_alg».proof.Proof.KernelIdeal.AggBody

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary: a fold through the program -/

/-- Core `c`'s buffers at launch. -/
abbrev W0 : Dev nD → Valuation τ sig (Elt F) := fun c b => (s₀ m ρ).mem ((c : Dev nD), b)
/-- After the reshape (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, which are region 1's entry contents: nothing runs
    between the two). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves, and every other buffer what it held at entry. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## What the fold holds at the buffers the value is read through

The reshape writes the bias row only; a region changes only its output's array (an input's array is left as entered). -/

/-- The reshape leaves x as launched. -/
theorem V1_main_arg0 (c : Dev nD) : V1 m ρ c main_arg0 = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
/-- The reshape leaves W as launched. -/
theorem V1_main_arg2 (c : Dev nD) : V1 m ρ c main_arg2 = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
/-- The bias row at region 0's entry is the launched bias vector, recast as 1 × 512. -/
theorem V1_main_v0 (c : Dev nD) : V1 m ρ c main_v0 = shapeCast S1x512 (m ((c : Thread nD τ).loc main_arg3)) shapeCasts_S512_S1x512 := by
  dsimp only [V1, W1, hostOps0]
  after_results
  rfl
/-- h at region 1's entry is what region 0's write-backs leave in its array. -/
theorem V2_main_v1 (c : Dev nD) : V2 m ρ c main_v1 = (dat0 (V1 m ρ) c).arrAt 3 cfg0.N := W2_arr m ρ c 3
/-- adj at region 1's entry is as launched: neither the reshape nor region 0 touches it. -/
theorem V2_main_arg1 (c : Dev nD) : V2 m ρ c main_arg1 = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
/-- The result's array at the end is what region 1's write-backs leave in it. -/
theorem W3_main_v2 (c : Dev nD) : W3 m ρ c (Proc.devRef .tc main_v2) = (dat1 (V2 m ρ) c).arrAt 2 cfg1.N := W3_arr m ρ c 2

/-! ## The arguments end as launched

The reshape writes none of them, and a region reads an argument through an input window or not at all, so the fold at an
argument's buffer walks back to the launch memory. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := V1_main_arg0 m ρ c
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = m ((c : Thread nD τ).loc main_arg1) := V2_main_arg1 m ρ c
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = m ((c : Thread nD τ).loc main_arg2) := V1_main_arg2 m ρ c
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! # The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape allocates no buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at
    some state. -/
abbrev Tₙ (c : Dev nD) : sProp 𝕄 := iprop(StableHlo.held (c : Thread nD τ) (Pipeline.ucRefs τ sig) (W3 m ρ c) ∗ ∃ r, prngReg c r)

/-! # The regions as segments -/

set_option backward.isDefEq.respectTransparency.types false in
/-- Region 0 over the thread state: entered from every unscoped buffer at `W1`, left at `W2`. Its arrays are split out of the
    unscoped buffers and put back at the exit contents; the generator register goes into the class's invariant and comes back;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3` (what the launch reads at the
    end). As region 0, but for its invariant: the class's invariant is assembled first and then weakened to the invariant before
    the first point (the scratch at anything); after the last point the invariant gives the class's back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine BIBase.Entails.trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # The program as segments, and the launch -/

/-- The program's three segments in order: the reshape from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of the segments. -/
theorem main_run (c : Dev nD) : main (F := F) c = Pipeline.Seg.run (segs m ρ) := (main_chain c).trans (by chain_rfl)

set_option backward.isDefEq.respectTransparency.types false in
/-- The run: at the compiled mesh, from any memory with zero counters, every weakly fair execution of the program on the
    TensorCores terminates, nothing faulting, and in every final state each unscoped buffer holds what the fold says. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: every weakly fair execution terminates, and every final state has the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Two

end
-- ==== Proof.Spec.lean ====
/-
  What the program computes, index by index, over the extended reals.

  hidden x w b is the affine layer h = x·wᵀ + b: entry (p, q) is the sum over i of x (p, i) · w (q, i), plus b (0, q).
  agg a h is the aggregation a·h: entry (p, q) is the sum over k of a (p, k) · h (k, q).
  The result of both programs is agg adj (hidden x w (the bias as a row)).
-/
import Idealize.ShloMosaic.PureOps.Ideal.Laws
import Idealize.ShloMosaic.Lib.ValueIdx

noncomputable section

namespace Cert.Spec

open Idealize.ShloMosaic Idealize.ShloMosaic.ValueIdx
open scoped BigOperators

/-- Entry (p, q) of x·wᵀ + b. -/
def hiddenAt (x : (⟨2, ![8192, 512]⟩ : Shape).Idx → EReal) (w : (⟨2, ![512, 512]⟩ : Shape).Idx → EReal)
    (b : (⟨2, ![1, 512]⟩ : Shape).Idx → EReal) (p : Fin 8192) (q : Fin 512) : EReal :=
  (∑ i : Fin 512, x (ix2 p i) * w (ix2 q i)) + b (ix2 0 q)

/-- x·wᵀ + b as an array. -/
def hidden (x : (⟨2, ![8192, 512]⟩ : Shape).Idx → EReal) (w : (⟨2, ![512, 512]⟩ : Shape).Idx → EReal)
    (b : (⟨2, ![1, 512]⟩ : Shape).Idx → EReal) : (⟨2, ![8192, 512]⟩ : Shape).Idx → EReal :=
  fun j => hiddenAt x w b (j 0) (j 1)

/-- Entry (p, q) of a·h. -/
def aggAt (a : (⟨2, ![8192, 8192]⟩ : Shape).Idx → EReal) (h : (⟨2, ![8192, 512]⟩ : Shape).Idx → EReal)
    (p : Fin 8192) (q : Fin 512) : EReal :=
  ∑ k : Fin 8192, a (ix2 p k) * h (ix2 k q)

/-- a·h as an array. -/
def agg (a : (⟨2, ![8192, 8192]⟩ : Shape).Idx → EReal) (h : (⟨2, ![8192, 512]⟩ : Shape).Idx → EReal) :
    (⟨2, ![8192, 512]⟩ : Shape).Idx → EReal :=
  fun j => aggAt a h (j 0) (j 1)

/-- A vector of 512 entries read as a 1 × 512 row. -/
def biasRow (b : (⟨1, ![512]⟩ : Shape).Idx → EReal) : (⟨2, ![1, 512]⟩ : Shape).Idx → EReal :=
  fun j => b (ix1 (j 1))

theorem hidden_apply (x : (⟨2, ![8192, 512]⟩ : Shape).Idx → EReal) (w : (⟨2, ![512, 512]⟩ : Shape).Idx → EReal)
    (b : (⟨2, ![1, 512]⟩ : Shape).Idx → EReal) (p : Fin 8192) (q : Fin 512) :
    hidden x w b (ix2 p q) = hiddenAt x w b p q := rfl

theorem agg_apply (a : (⟨2, ![8192, 8192]⟩ : Shape).Idx → EReal) (h : (⟨2, ![8192, 512]⟩ : Shape).Idx → EReal)
    (p : Fin 8192) (q : Fin 512) : agg a h (ix2 p q) = aggAt a h p q := rfl

end Cert.Spec

end
-- ==== Proof.KernelIdeal.LinearValue.lean ====
/-
  What region 0 leaves in h: the affine layer x·Wᵀ + b, entry by entry.

  At point t the region loads rows 1024 t … 1024 t + 1023 of x, the whole of W and the whole bias row, and writes back, as
  block t of h, the product of the block of x with Wᵀ (into a zero accumulator) plus the bias row repeated down the rows; every
  change of float format is the identity on the extended reals. So entry (1024 t + p, q) of h is
  ∑ i, x (1024 t + p, i) · W (q, i) + b (0, q).

  Here: the product of one block read at an entry (the contraction runs over axis 1 of both operands), the point's payload at an
  entry, each input block as rows of its array, what a point writes back as a block of x·Wᵀ + b, and, the eight blocks covering
  the 8192 rows (row r lies in block r / 1024), the whole array after the region.
-/
import proofs.«143857_j6597069766680_1_alg».proof.Proof.KernelIdeal.Data
import proofs.«143857_j6597069766680_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Two

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-! # The product x·wᵀ of one block, read at an entry -/

theorem lhsAxis0 (i : S1024x512.Idx) (k : dot_S1024x512_S512x512_S1024x512_1_1_0_0_n_n.contr.Idx) :
    (dot_S1024x512_S512x512_S1024x512_1_1_0_0_n_n.lhsIdx i k 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
theorem lhsAxis1 (i : S1024x512.Idx) (k : dot_S1024x512_S512x512_S1024x512_1_1_0_0_n_n.contr.Idx) :
    (dot_S1024x512_S512x512_S1024x512_1_1_0_0_n_n.lhsIdx i k 1).val = (k ⟨0, by decide⟩).val :=
  dot_S1024x512_S512x512_S1024x512_1_1_0_0_n_n.lhsIdx_val_of_single rfl i k
theorem rhsAxis0 (i : S1024x512.Idx) (k : dot_S1024x512_S512x512_S1024x512_1_1_0_0_n_n.contr.Idx) :
    (dot_S1024x512_S512x512_S1024x512_1_1_0_0_n_n.rhsIdx i k 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
theorem rhsAxis1 (i : S1024x512.Idx) (k : dot_S1024x512_S512x512_S1024x512_1_1_0_0_n_n.contr.Idx) :
    (dot_S1024x512_S512x512_S1024x512_1_1_0_0_n_n.rhsIdx i k 1).val = (k ⟨0, by decide⟩).val :=
  dot_S1024x512_S512x512_S1024x512_1_1_0_0_n_n.rhsIdx_val_of_single rfl i k

/-- The product into the zero constant at (p, q): the sum over i of the left operand at (p, i) times the right at (q, i). -/
theorem product_apply (x : FVec Ideal S1024x512 .bf16) (w : FVec Ideal S512x512 .bf16) (p : Fin 1024) (q : Fin 512) :
    FloatOps.matmul dot_S1024x512_S512x512_S1024x512_1_1_0_0_n_n none x w (constant S1024x512 .f32 0x00000000#32) (ix2 p q)
      = ∑ i : Fin 512, x (ix2 p i) * w (ix2 q i) := by
  rw [Ideal.matmul_constant_zero_apply, ← Equiv.sum_comp (contrEquiv1 dot_S1024x512_S512x512_S1024x512_1_1_0_0_n_n 512 rfl rfl).symm]
  refine Finset.sum_congr rfl fun k _ => ?_
  have hk := contrEquiv1_symm_val dot_S1024x512_S512x512_S1024x512_1_1_0_0_n_n 512 rfl rfl k
  have el : dot_S1024x512_S512x512_S1024x512_1_1_0_0_n_n.lhsIdx (ix2 p q) ((contrEquiv1 dot_S1024x512_S512x512_S1024x512_1_1_0_0_n_n 512 rfl rfl).symm k) = ix2 p k := funext fun a => Fin.ext (by
    match a with
    | ⟨0, _⟩ => exact lhsAxis0 _ _
    | ⟨1, _⟩ => exact (lhsAxis1 _ _).trans hk)
  have er : dot_S1024x512_S512x512_S1024x512_1_1_0_0_n_n.rhsIdx (ix2 p q) ((contrEquiv1 dot_S1024x512_S512x512_S1024x512_1_1_0_0_n_n 512 rfl rfl).symm k) = ix2 q k := funext fun a => Fin.ext (by
    match a with
    | ⟨0, _⟩ => exact rhsAxis0 _ _
    | ⟨1, _⟩ => exact (rhsAxis1 _ _).trans hk)
  rw [el, er]

/-- The body's payload at (p, q): the product's entry plus the bias row's entry q, every change of format the identity. -/
theorem pay_apply (x0 : Vec Ideal S1024x512 .f32) (x1 : Vec Ideal S512x512 .f32) (x2 : Vec Ideal S1x512 .f32)
    (p : Fin 1024) (q : Fin 512) :
    k0_pay1 x0 x1 x2 (ix2 p q) = (∑ i : Fin 512, x0 (ix2 p i) * x1 (ix2 q i)) + x2 (ix2 0 q) := by
  unfold k0_pay1
  refine (truncf_apply (φ := .f32) (ψ := .bf16) _ bitsLt_bf16_f32 (ix2 p q)).trans ((addf_apply (φ := .f32) _ _ (ix2 p q)).trans ?_)
  refine congrArg₂ (· + ·) ((product_apply _ _ p q).trans rfl) ?_
  rw [shapeCast_self]
  refine broadcastTo_apply x2 broadcasts_S1x512_S1024x512 (ix2 p q) (ix2 0 q) fun a => ?_
  match a with
  | ⟨0, _⟩ => rfl
  | ⟨1, _⟩ => rfl

/-! # From the blocks to the array -/

variable (V : (c : Dev nD) → (b : Ref sig .tc) → Buf (Elt Ideal) ((c : Thread nD τ).loc b))

theorem zeroOffsets : (![0, 0] : Fin 2 → Nat) = fun _ => 0 := funext fun a => by fin_cases a <;> rfl

/-- The index maps over the grid: at point t the block of x and the block of h are block t of the rows (column block 0),
    the block of W and of the bias row are the whole arrays. -/
theorem blockIndices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, i) of the block of x at point t is entry (1024 t + p, i) of x. -/
theorem xBlock_apply (c : Dev nD) (t : Fin cfg0.N) (y : S1024x512.Idx) (k : S8192x512.Idx)
    (hk0 : (k 0).val = t.val * 1024 + (y 0).val) (hk1 : (k 1).val = (y 1).val) :
    (iblk0 V c 0 t : Vec Ideal S1024x512 .f32) y = (V c main_arg0 : S8192x512.Idx → EReal) k := by
  obtain ⟨e0, e1, -⟩ := blockIndices t
  show V c main_arg0 (((cfg0.win 0).blk t).view.emb y) = V c main_arg0 k
  refine congrArg _ (funext fun a => Fin.ext ?_)
  match a with
  | ⟨0, _⟩ => show win0_0.index t (0 : Fin 2) * 1024 + 1 * (y 0).val = (k 0).val; omega
  | ⟨1, _⟩ => show win0_0.index t (1 : Fin 2) * 512 + 1 * (y 1).val = (k 1).val; omega

/-- The block of W at every point is W. -/
theorem wBlock_apply (c : Dev nD) (t : Fin cfg0.N) (y : S512x512.Idx) :
    (iblk0 V c 1 t : Vec Ideal S512x512 .f32) y = (V c main_arg2 : S512x512.Idx → EReal) y := by
  obtain ⟨-, -, e0, e1, -⟩ := blockIndices t
  show V c main_arg2 (((cfg0.win 1).blk t).view.emb y) = V c main_arg2 y
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- The block of the bias row at every point is the bias row. -/
theorem bBlock_apply (c : Dev nD) (t : Fin cfg0.N) (y : S1x512.Idx) :
    (iblk0 V c 2 t : Vec Ideal S1x512 .f32) y = (V c main_v0 : S1x512.Idx → EReal) y := by
  obtain ⟨-, -, -, -, e0, e1, -⟩ := blockIndices t
  show V c main_v0 (((cfg0.win 2).blk t).view.emb y) = V c main_v0 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega

/-- One entry of what a point computes, over any three blocks that are the rows 1024 n … 1024 n + 1023 of an array X, the
    whole of W and the whole of the row B: the payload at y is entry k of X·Wᵀ + B, k being y moved down by 1024 n rows. -/
theorem pay_eq_hidden (X : S8192x512.Idx → EReal) (W : S512x512.Idx → EReal) (B : S1x512.Idx → EReal)
    (x0 : Vec Ideal S1024x512 .f32) (x1 : Vec Ideal S512x512 .f32) (x2 : Vec Ideal S1x512 .f32) (n : ℕ)
    (h0 : ∀ (y : S1024x512.Idx) (k : S8192x512.Idx), (k 0).val = n * 1024 + (y 0).val → (k 1).val = (y 1).val → x0 y = X k)
    (h1 : ∀ y : S512x512.Idx, x1 y = W y) (h2 : ∀ y : S1x512.Idx, x2 y = B y)
    (y : S1024x512.Idx) (k : S8192x512.Idx) (hk0 : (k 0).val = n * 1024 + (y 0).val) (hk1 : (k 1).val = (y 1).val) :
    k0_pay1 x0 x1 x2 y = Cert.Spec.hidden X W B k := by
  obtain ⟨p, q, rfl⟩ : ∃ (p : Fin 1024) (q : Fin 512), y = ix2 p q := ⟨y 0, y 1, eq_ix2 y⟩
  obtain ⟨r, s, rfl⟩ : ∃ (r : Fin 8192) (s : Fin 512), k = ix2 r s := ⟨k 0, k 1, eq_ix2 k⟩
  obtain rfl : s = q := Fin.ext hk1
  rw [pay_apply, Cert.Spec.hidden_apply]
  unfold Cert.Spec.hiddenAt
  refine congrArg₂ (· + ·) (Finset.sum_congr rfl fun i _ => ?_) (h2 _)
  rw [h0 (ix2 p i) (ix2 r i) hk0 rfl, h1]

/-- What point t writes back is block t of x·Wᵀ + b of the arrays as the region finds them. -/
theorem flushed_eq_hidden (c : Dev nD) (t : Fin cfg0.N) :
    (dat0 (F := Ideal) V c).flushed 3 t
      = ((cfg0.win 3).blk t).view.read (Elt Ideal) (Cert.Spec.hidden (V c main_arg0) (V c main_arg2) (V c main_v0)) := by
  show (cfg0.win 3).cut (grid0.coords t) ((dat0 V c).after 3 t) = _
  rw [after0_3]
  unfold out0_3
  rw [View.canon_unit_zero zeroOffsets]
  simp only [View.ld_unit_zero (S := S1024x512) zeroOffsets, View.ld_unit_zero (S := S512x512) zeroOffsets,
    View.ld_unit_zero (S := S1x512) zeroOffsets]
  obtain ⟨-, -, -, -, -, -, e0, e1⟩ := blockIndices t
  funext j
  show k0_pay1 (iblk0 V c 0 t) (iblk0 V c 1 t) (iblk0 V c 2 t) j
    = Cert.Spec.hidden (V c main_arg0) (V c main_arg2) (V c main_v0) (((cfg0.win 3).blk t).view.emb j)
  refine pay_eq_hidden (V c main_arg0) (V c main_arg2) (V c main_v0) (iblk0 V c 0 t) (iblk0 V c 1 t) (iblk0 V c 2 t) t.val
    (fun y k hk0 hk1 => xBlock_apply V c t y k hk0 hk1) (fun y => wBlock_apply V c t y) (fun y => bBlock_apply V c t y) j _ ?_ ?_
  · show win0_3.index t (0 : Fin 2) * 1024 + 1 * (j 0).val = t.val * 1024 + (j 0).val; omega
  · show win0_3.index t (1 : Fin 2) * 512 + 1 * (j 1).val = (j 1).val; omega

/-- An index of h is in point t's block iff each coordinate is in the block's range on its axis. -/
theorem mem_hBlock (t : Fin cfg0.N) (i : S8192x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v1).slice (win0_3.rect t)).set ↔ _
  rw [View.set_slice_whole, Rect.mem_set_unit]
  exact Iff.rfl

/-- Row r of h is in the block of point r / 1024: the blocks cover h. -/
theorem rows_covered (i : S8192x512.Idx) :
    ∃ t : Fin cfg0.N, (cfg0.win 3).flush t = true ∧ i ∈ ((cfg0.win 3).blk t).view.set := by
  have hi0 : (i 0).val < 8192 := (i 0).isLt
  have hi1 : (i 1).val < 512 := (i 1).isLt
  obtain ⟨t, ht⟩ : ∃ t : Fin cfg0.N, t.val = (i 0).val / 1024 :=
    ⟨⟨(i 0).val / 1024, by rw [show cfg0.N = 8 from N_0]; omega⟩, rfl⟩
  obtain ⟨-, -, -, -, -, -, e0, e1⟩ := blockIndices t
  refine ⟨t, flush0_3 t, ?_⟩
  rw [mem_hBlock]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- After region 0 the array h holds x·Wᵀ + b of the arrays the region found. -/
theorem linear_value (c : Dev nD) :
    (dat0 (F := Ideal) V c).arrAt 3 cfg0.N = Cert.Spec.hidden (V c main_arg0) (V c main_arg2) (V c main_v0) :=
  (dat0 (F := Ideal) V c).arrAt_eq_of_cover 3 (Cert.Spec.hidden (V c main_arg0) (V c main_arg2) (V c main_v0))
    (fun t _ => flushed_eq_hidden V c t) rows_covered

end Cert.KernelIdeal.Two

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.KernelIdeal.AggValue.lean ====
/-
  The output of region 1 is adj · h.

  Region 1 walks an 8 × 4 grid, the second coordinate fastest: point n has block of rows i = n / 4 and run k = n % 4 of the
  contracted axis. At point n the scratch receives, at (p, q), the sum over j < 2048 of adj (1024 i + p, 2048 k + j) · h (2048 k + j, q),
  added to zero when k = 0 and to what point n − 1 left otherwise. So by induction on the point the scratch holds, after point n, the
  terms of the runs 0 … n % 4 of its block of rows; at k = 3 the four runs of 2048 make up the whole contracted axis of 8192, one finite
  sum regrouped in a commutative monoid, and that is the entry of adj · h. The points of second coordinate 3 are the ones that write
  the scratch back, each to its block of 1024 rows, and those eight blocks cover the array: row r lies in the block of point
  4 (r / 1024) + 3.

  Here: the regrouping law; the two payloads read at an index (the zero array; the accumulator plus a plain matrix product); the
  blocks read off the arrays through the index maps, decided once over the grid; the invariant; what a writing point writes
  back; the cover; the array after the region. Everything is at the extended reals, where + and · are commutative and associative
  with no finiteness needed.
-/
import proofs.«143857_j6597069766680_1_alg».proof.Proof.KernelIdeal.Data
import proofs.«143857_j6597069766680_1_alg».proof.Proof.Spec
import proofs.«143857_j6597069766680_1_alg».proof.Proof.LibMatmul
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Logic.Equiv.Fin.Basic

set_option maxRecDepth 16384

noncomputable section

namespace Cert.KernelIdeal.Two

open Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-! # A sum over 8192 terms in four runs of 2048 -/

section Regroup

/-- A sum over m·n terms is the sum, over m runs, of each run's n terms. -/
theorem sum_runs {β : Type*} [AddCommMonoid β] (m n : ℕ) (f : Fin (m * n) → β) :
    ∑ k : Fin (m * n), f k = ∑ s : Fin m, ∑ j : Fin n, f (finProdFinEquiv (s, j)) := by
  rw [← Fintype.sum_prod_type', ← Equiv.sum_comp finProdFinEquiv f]

end Regroup

/-! # The payloads at an index -/

/-- The reset stores the zero array. -/
theorem zero_apply (p : Fin 1024) (q : Fin 512) : (k1_pay1 (F := Ideal)) (ix2 p q) = 0 := by
  unfold k1_pay1
  refine (congrFun (shapeCast_self _ _) (ix2 p q)).trans ?_
  exact Ideal.ofBits_zero_f32

/-- One step adds to the running sum, at (p, q), the product of the row p of the left block and the column q of the right one. -/
theorem step_apply (a : Vec Ideal S1024x2048 .f32) (hh : Vec Ideal S2048x512 .bf16) (acc : Vec Ideal S1024x512 .f32)
    (p : Fin 1024) (q : Fin 512) :
    k1_pay2 a hh acc (ix2 p q) = acc (ix2 p q) + ∑ j : Fin 2048, a (ix2 p j) * hh (ix2 j q) := by
  unfold k1_pay2
  refine (congrFun (shapeCast_self _ _) (ix2 p q)).trans ?_
  refine (addf_apply _ _ (ix2 p q)).trans ?_
  refine congrArg (acc (ix2 p q) + ·) ?_
  rw [shapeCast_self hh shapeCasts_S2048x512_S2048x512]
  exact Cert.Matmul.matmul_plain_apply (M := 1024) (K := 2048) (N := 512) none (truncf .bf16 a bitsLt_bf16_f32) hh p q

/-! # The blocks read off the arrays -/

variable (V : (c : Dev nD) → (b : Ref sig .tc) → Buf (Elt Ideal) ((c : Thread nD τ).loc b))

/-- The two arrays region 1 reads: adj, and h as region 0 left it. -/
abbrev adjA (c : Dev nD) : Vec Ideal S8192x8192 .f32 := V c main_arg1
abbrev hidA (c : Dev nD) : Vec Ideal S8192x512 .bf16 := V c main_v1
/-- Their blocks at point t. -/
abbrev adjB (c : Dev nD) (t : Fin cfg1.N) : Vec Ideal S1024x2048 .f32 := iblk1 V c 0 t
abbrev hidB (c : Dev nD) (t : Fin cfg1.N) : Vec Ideal S2048x512 .bf16 := iblk1 V c 1 t

/-- Row p of the i-th block of 1024 rows; entry j of the s-th run of 2048 (read modulo 8192, so that they are total). -/
def rowAt (i : ℕ) (p : Fin 1024) : Fin 8192 := ⟨(1024 * i + p.val) % 8192, Nat.mod_lt _ (by decide)⟩
def runAt (s : ℕ) (j : Fin 2048) : Fin 8192 := ⟨(2048 * s + j.val) % 8192, Nat.mod_lt _ (by decide)⟩

/-- The index maps over the grid: point t is (t / 4, t % 4). -/
theorem idx_facts : ∀ t : Fin cfg1.N, win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N, _)

theorem adjB_apply (c : Dev nD) (t : Fin cfg1.N) (p : Fin 1024) (j : Fin 2048) :
    adjB V c t (ix2 p j) = adjA V c (ix2 (rowAt (t.val / 4) p) (runAt (t.val % 4) j)) := by
  obtain ⟨e0, e1, -, -, -, -⟩ := idx_facts t
  have hN : t.val < 32 := lt_of_lt_of_eq t.isLt N_1
  show V c main_arg1 (((cfg1.win 0).blk t).view.emb (ix2 p j)) = V c main_arg1 _
  refine congrArg _ ?_
  funext a; apply Fin.ext
  match a with
  | ⟨0, _⟩ => show win1_0.index t (0 : Fin 2) * 1024 + 1 * p.val = (1024 * (t.val / 4) + p.val) % 8192; omega
  | ⟨1, _⟩ => show win1_0.index t (1 : Fin 2) * 2048 + 1 * j.val = (2048 * (t.val % 4) + j.val) % 8192; omega

theorem hidB_apply (c : Dev nD) (t : Fin cfg1.N) (j : Fin 2048) (q : Fin 512) :
    hidB V c t (ix2 j q) = hidA V c (ix2 (runAt (t.val % 4) j) q) := by
  obtain ⟨-, -, e0, e1, -, -⟩ := idx_facts t
  have hN : t.val < 32 := lt_of_lt_of_eq t.isLt N_1
  show V c main_v1 (((cfg1.win 1).blk t).view.emb (ix2 j q)) = V c main_v1 _
  refine congrArg _ ?_
  funext a; apply Fin.ext
  match a with
  | ⟨0, _⟩ => show win1_1.index t (0 : Fin 2) * 2048 + 1 * j.val = (2048 * (t.val % 4) + j.val) % 8192; omega
  | ⟨1, _⟩ => show win1_1.index t (1 : Fin 2) * 512 + 1 * q.val = q.val; omega

/-! # The running sum at an index -/

/-- Row 1024 i + p of adj against column q of h, over the s-th run of 2048 of the contracted axis. -/
def runSum (c : Dev nD) (i s : ℕ) (p : Fin 1024) (q : Fin 512) : EReal :=
  ∑ j : Fin 2048, adjA V c (ix2 (rowAt i p) (runAt s j)) * hidA V c (ix2 (runAt s j) q)

/-- The product of the two blocks of point t is the term of its block of rows and its run. -/
theorem blockSum_eq (c : Dev nD) (t : Fin cfg1.N) (p : Fin 1024) (q : Fin 512) :
    ∑ j : Fin 2048, adjB V c t (ix2 p j) * hidB V c t (ix2 j q) = runSum V c (t.val / 4) (t.val % 4) p q :=
  Finset.sum_congr rfl fun j _ => by rw [adjB_apply V c t p j, hidB_apply V c t j q]

/-- At a point of second coordinate 0 the scratch holds the first run's term. -/
theorem acc1_apply_reset (c : Dev nD) (t : Fin cfg1.N) (h0 : t.val % 4 = 0) (p : Fin 1024) (q : Fin 512) :
    acc1 V c t.val t.isLt (ix2 p q) = runSum V c (t.val / 4) 0 p q := by
  refine (congrFun (acc1_reset V c t h0) (ix2 p q)).trans ?_
  refine (step_apply (adjB V c t) (hidB V c t) (k1_pay1 (F := Ideal)) p q).trans ?_
  rw [zero_apply, zero_add, blockSum_eq V c t p q, h0]

/-- After point n the scratch holds, at (p, q), the terms of the runs 0 … n % 4 of the block of rows n / 4. -/
theorem acc1_apply (c : Dev nD) : ∀ (n : ℕ) (hn : n < cfg1.N) (p : Fin 1024) (q : Fin 512),
    acc1 V c n hn (ix2 p q) = ∑ s ∈ Finset.range (n % 4 + 1), runSum V c (n / 4) s p q := by
  intro n
  induction n with
  | zero =>
    intro hn p q
    refine (acc1_apply_reset V c ⟨0, hn⟩ rfl p q).trans ?_
    show _ = ∑ s ∈ Finset.range 1, runSum V c (0 / 4) s p q
    rw [Finset.sum_range_one]
  | succ n ih =>
    intro hn p q
    by_cases h0 : (n + 1) % 4 = 0
    · refine (acc1_apply_reset V c ⟨n + 1, hn⟩ h0 p q).trans ?_
      show runSum V c ((n + 1) / 4) 0 p q = _
      rw [h0, Finset.sum_range_one]
    · refine (congrFun (acc1_step V c ⟨n + 1, hn⟩ h0) (ix2 p q)).trans ?_
      refine (step_apply (adjB V c ⟨n + 1, hn⟩) (hidB V c ⟨n + 1, hn⟩) (acc1 V c n (Nat.lt_of_succ_lt hn)) p q).trans ?_
      rw [ih (Nat.lt_of_succ_lt hn) p q, blockSum_eq V c ⟨n + 1, hn⟩ p q]
      show _ + runSum V c ((n + 1) / 4) ((n + 1) % 4) p q = _
      have e1 : (n + 1) / 4 = n / 4 := by omega
      have e2 : (n + 1) % 4 = n % 4 + 1 := by omega
      rw [e1, e2, Finset.sum_range_succ _ (n % 4 + 1)]

/-- At a point of second coordinate 3 the four runs make up the whole contracted axis. -/
theorem acc1_last (c : Dev nD) (t : Fin cfg1.N) (h3 : t.val % 4 = 3) (p : Fin 1024) (q : Fin 512) :
    acc1 V c t.val t.isLt (ix2 p q)
      = ∑ k : Fin 8192, adjA V c (ix2 (rowAt (t.val / 4) p) k) * hidA V c (ix2 k q) := by
  rw [acc1_apply V c t.val t.isLt p q, h3, Finset.sum_range]
  refine ((sum_runs 4 2048 (fun k : Fin 8192 => adjA V c (ix2 (rowAt (t.val / 4) p) k) * hidA V c (ix2 k q))).trans ?_).symm
  refine Finset.sum_congr rfl fun s _ => Finset.sum_congr rfl fun j _ => ?_
  have e : (finProdFinEquiv (s, j) : Fin 8192) = runAt s.val j :=
    Fin.ext (by have := s.isLt; have := j.isLt; simp only [finProdFinEquiv_apply_val, runAt]; omega)
  rw [e]

/-! # From the blocks to the array -/

/-- What a point of second coordinate 3 writes back is its block of adj · h. -/
theorem flushed_eq (c : Dev nD) (t : Fin cfg1.N) (hf : (cfg1.win 2).flush t = true) :
    (dat1 (F := Ideal) V c).flushed 2 t
      = ((cfg1.win 2).blk t).view.read (Elt Ideal) (Cert.Spec.agg (adjA V c) (hidA V c)) := by
  have h3 : t.val % 4 = 3 := (flush1_2 t).mp hf
  obtain ⟨-, -, -, -, e0, e1⟩ := idx_facts t
  have hN : t.val < 32 := lt_of_lt_of_eq t.isLt N_1
  show (cfg1.win 2).cut (grid1.coords t) ((dat1 (F := Ideal) V c).after 2 t) = _
  rw [after1_2]
  funext y
  obtain ⟨p, q, rfl⟩ : ∃ (p : Fin 1024) (q : Fin 512), y = ix2 p q := ⟨y 0, y 1, eq_ix2 y⟩
  show acc1 V c t.val t.isLt (ix2 p q) = Cert.Spec.agg (adjA V c) (hidA V c) (((cfg1.win 2).blk t).view.emb (ix2 p q))
  have hi : ((cfg1.win 2).blk t).view.emb (ix2 p q) = ix2 (rowAt (t.val / 4) p) q := by
    funext a; apply Fin.ext
    match a with
    | ⟨0, _⟩ => show win1_2.index t (0 : Fin 2) * 1024 + 1 * p.val = (1024 * (t.val / 4) + p.val) % 8192; omega
    | ⟨1, _⟩ => show win1_2.index t (1 : Fin 2) * 512 + 1 * q.val = q.val; omega
  rw [hi, Cert.Spec.agg_apply, acc1_last V c t h3 p q]
  rfl

/-- An index of the array is in point t's block iff each coordinate is in the block's range on its axis. -/
theorem mem_blk (t : Fin cfg1.N) (i : S8192x512.Idx) :
    i ∈ ((cfg1.win 2).blk t).view.set ↔ ∀ a : Fin 2, win1_2.index t a * S1024x512.size a ≤ (i a).val ∧ (i a).val < win1_2.index t a * S1024x512.size a + S1024x512.size a := by
  show i ∈ ((View.whole main_v2).slice (win1_2.rect t)).set ↔ _
  rw [View.set_slice_whole, Rect.mem_set_unit]
  exact Iff.rfl

/-- Row r, any column, is in the block written back at point 4 (r / 1024) + 3. -/
theorem out_covered (i : S8192x512.Idx) :
    ∃ t : Fin cfg1.N, (cfg1.win 2).flush t = true ∧ i ∈ ((cfg1.win 2).blk t).view.set := by
  have hi0 : (i 0).val < 8192 := (i 0).isLt
  have hi1 : (i 1).val < 512 := (i 1).isLt
  have hlt : 4 * ((i 0).val / 1024) + 3 < cfg1.N := by rw [show cfg1.N = 32 from N_1]; omega
  refine ⟨⟨4 * ((i 0).val / 1024) + 3, hlt⟩, (flush1_2 _).mpr (by show (4 * ((i 0).val / 1024) + 3) % 4 = 3; omega), ?_⟩
  obtain ⟨-, -, -, -, e0, e1⟩ := idx_facts ⟨4 * ((i 0).val / 1024) + 3, hlt⟩
  have e0' : win1_2.index ⟨4 * ((i 0).val / 1024) + 3, hlt⟩ (0 : Fin 2) = (4 * ((i 0).val / 1024) + 3) / 4 := e0
  rw [mem_blk]
  intro a
  match a with
  | ⟨0, _⟩ => show win1_2.index _ (0 : Fin 2) * 1024 ≤ (i 0).val ∧ (i 0).val < win1_2.index _ (0 : Fin 2) * 1024 + 1024; omega
  | ⟨1, _⟩ => show win1_2.index _ (1 : Fin 2) * 512 ≤ (i 1).val ∧ (i 1).val < win1_2.index _ (1 : Fin 2) * 512 + 512; omega

/-- THE OUTPUT ARRAY after region 1 is adj · h, of the arrays the region found. -/
theorem agg_value (c : Dev nD) :
    (dat1 (F := Ideal) V c).arrAt 2 cfg1.N = Cert.Spec.agg (V c main_arg1) (V c main_v1) :=
  (dat1 (F := Ideal) V c).arrAt_eq_of_cover 2 (Cert.Spec.agg (adjA V c) (hidA V c)) (flushed_eq V c) out_covered

end Cert.KernelIdeal.Two

end
-- ==== Proof.KernelIdeal.BiasRow.lean ====
/-
  The bias vector reshaped to a row.

  The program first reshapes the bias of 512 entries to a 1 × 512 array, keeping the row-major order: entry (0, q) of the row
  is entry q of the vector. That is the row the specification calls biasRow.
-/
import proofs.«143857_j6597069766680_1_alg».proof.Proof.KernelIdeal.Data
import proofs.«143857_j6597069766680_1_alg».proof.Proof.Spec
import Idealize.ShloMosaic.Lib.Pipeline.Value
import Idealize.ShloMosaic.Lib.ValueIdx
import Idealize.ShloMosaic.Lib.ValueLayout

noncomputable section

namespace Cert.KernelIdeal.Two

open Cert.KernelIdeal.Gen
open Idealize.ShloMosaic Idealize.ShloMosaic.ValueIdx

/-- The reshape of the bias vector to a 1 × 512 array reads, at (u, q), the vector at q: it is the bias as a row. -/
theorem reshape_bias (b : (⟨S512, .f32⟩ : BufTy).Contents (Elt Ideal)) :
    shapeCast S1x512 b shapeCasts_S512_S1x512 = Cert.Spec.biasRow b := by
  funext j
  obtain ⟨u, q, rfl⟩ : ∃ (u : Fin 1) (q : Fin 512), j = ix2 u q := ⟨j 0, j 1, eq_ix2 j⟩
  exact shapeCast_a_1a_apply b shapeCasts_S512_S1x512 u q

end Cert.KernelIdeal.Two

end
-- ==== Proof.RefValue.lean ====
/-
  The reference's result, index by index: the aggregation of the affine layer.
-/
import proofs.«143857_j6597069766680_1_alg».proof.Proof.Gen.ReferenceIdeal.Run
import proofs.«143857_j6597069766680_1_alg».proof.Proof.Gen.ReferenceIdeal.Read
import proofs.«143857_j6597069766680_1_alg».proof.Proof.Spec
import proofs.«143857_j6597069766680_1_alg».proof.Proof.LibMatmul

noncomputable section

namespace Cert.ReferenceIdeal.RefValue

open Cert.ReferenceIdeal Cert.ReferenceIdeal.Read Idealize.ShloMosaic Idealize.ShloMosaic.ValueIdx
open scoped BigOperators

/-- The left operand of the second product is read at row p, column k. -/
theorem lidx4_ix2 (p : Fin 8192) (q : Fin 512) (k : Fin 8192) : lidx_main_v4 (ix2 p q) k = ix2 p k :=
  funext fun a => Fin.ext (by match a with | ⟨0, _⟩ => rfl | ⟨1, _⟩ => rfl)

/-- The right operand of the second product is read at row k, column q. -/
theorem ridx4_ix2 (p : Fin 8192) (q : Fin 512) (k : Fin 8192) : ridx_main_v4 (ix2 p q) k = ix2 k q :=
  funext fun a => Fin.ext (by match a with | ⟨0, _⟩ => rfl | ⟨1, _⟩ => rfl)

/-- The left operand of the first product is read at row k, column i. -/
theorem lidx0_ix2 (k : Fin 8192) (q : Fin 512) (i : Fin 512) : lidx_main_v0 (ix2 k q) i = ix2 k i :=
  funext fun a => Fin.ext (by match a with | ⟨0, _⟩ => rfl | ⟨1, _⟩ => rfl)

/-- The right operand of the first product is read at row q, column i: the product is with the transpose. -/
theorem ridx0_ix2 (k : Fin 8192) (q : Fin 512) (i : Fin 512) : ridx_main_v0 (ix2 k q) i = ix2 q i :=
  funext fun a => Fin.ext (by match a with | ⟨0, _⟩ => rfl | ⟨1, _⟩ => rfl)

/-- The bias broadcast over the rows is read at row 0 of the 1 × 512 row. -/
theorem idx2_ix2 (k : Fin 8192) (q : Fin 512) : idx_main_v2 (ix2 k q) = ix2 (0 : Fin 1) q :=
  funext fun a => Fin.ext (by match a with | ⟨0, _⟩ => rfl | ⟨1, _⟩ => rfl)

/-- The 1 × 512 row is read off the bias vector at its column. -/
theorem idx1_ix2 (q : Fin 512) : idx_main_v1 (ix2 (0 : Fin 1) q) = ix1 q :=
  funext fun a => Fin.ext (by match a with | ⟨0, _⟩ => rfl)

/-- The reference computes adj · (x · Wᵀ + b): entry (p, q) is the sum over k of adj (p, k) times
    (the sum over i of x (k, i) · W (q, i), plus b q). -/
theorem ref_value (x0 : (⟨Cert.ReferenceIdeal.S8192x512, .f32⟩ : BufTy).Contents (Elt Ideal)) (x1 : (⟨Cert.ReferenceIdeal.S8192x8192, .f32⟩ : BufTy).Contents (Elt Ideal))
    (x2 : (⟨Cert.ReferenceIdeal.S512x512, .f32⟩ : BufTy).Contents (Elt Ideal)) (x3 : (⟨Cert.ReferenceIdeal.S512, .f32⟩ : BufTy).Contents (Elt Ideal)) :
    Cert.ReferenceIdeal.Read.val_main_v4 (F := Ideal) x0 x1 x2 x3 = Cert.Spec.agg x1 (Cert.Spec.hidden x0 x2 (Cert.Spec.biasRow x3)) := by
  funext i
  obtain ⟨p, q, rfl⟩ : ∃ (p : Fin 8192) (q : Fin 512), i = ix2 p q := ⟨i 0, i 1, eq_ix2 i⟩
  rw [val_main_v4_apply, Cert.Spec.agg_apply]
  unfold Cert.Spec.aggAt
  refine Finset.sum_congr rfl fun k _ => ?_
  rw [lidx4_ix2, ridx4_ix2, Cert.Spec.hidden_apply, val_main_v3_apply, val_main_v0_apply, val_main_v2_apply, val_main_v1_apply,
    idx2_ix2, idx1_ix2, Ideal.addf_def]
  unfold Cert.Spec.hiddenAt
  show x1 (ix2 p k) * ((∑ i : Fin 512, x0 (lidx_main_v0 (ix2 k q) i) * x2 (ridx_main_v0 (ix2 k q) i)) + x3 (ix1 q))
    = x1 (ix2 p k) * ((∑ i : Fin 512, x0 (ix2 k i) * x2 (ix2 q i)) + x3 (ix1 q))
  refine congrArg (fun z => x1 (ix2 p k) * (z + x3 (ix1 q))) ?_
  refine Finset.sum_congr rfl fun i _ => ?_
  rw [lidx0_ix2, ridx0_ix2]

end Cert.ReferenceIdeal.RefValue

end
-- ==== Proof.lean ====
/-
  The kernel computes out = adj·(x·Wᵀ + b) in two launches — the affine layer h = x·Wᵀ + b block of rows by block of rows, then
  the aggregation adj·h with the contracted axis cut into four blocks whose products are summed in a scratch buffer — and the
  reference computes the same with two whole products. Over the extended reals, where every change of float format is the
  identity and a product into the zero array is the plain sum of products, both results are, entry by entry,

      out (p, q) = ∑ k, adj (p, k) · ( ∑ i, x (k, i) · W (q, i) + b (q) ) :

  on the kernel's side the four partial sums over k regroup into the one sum (addition of extended reals is commutative and
  associative, so no finiteness of the inputs is used), on the reference's side it is what the two dot_generals and the
  broadcast bias read at an index.

  The frames: each kernel program runs its host reshape and its two regions to the end with the arguments untouched (region 1's
  invariant carries the scratch's running sum from point to point); the reference is a straight line of host operations. The
  idealization rewrote nothing, so the kernel's idealization is the program's own text and `preserves` is `True`.
-/
import proofs.«143857_j6597069766680_1_alg».proof.Defs
import proofs.«143857_j6597069766680_1_alg».proof.Proof.Gen.Kernel
import proofs.«143857_j6597069766680_1_alg».proof.Proof.Gen.KernelIdeal
import proofs.«143857_j6597069766680_1_alg».proof.Proof.Gen.ReferenceIdeal
import proofs.«143857_j6597069766680_1_alg».proof.Proof.Gen.Pre_finite_inputs
import proofs.«143857_j6597069766680_1_alg».proof.Proof.Kernel.Whole
import proofs.«143857_j6597069766680_1_alg».proof.Proof.KernelIdeal.Whole
import proofs.«143857_j6597069766680_1_alg».proof.Proof.KernelIdeal.LinearValue
import proofs.«143857_j6597069766680_1_alg».proof.Proof.KernelIdeal.AggValue
import proofs.«143857_j6597069766680_1_alg».proof.Proof.KernelIdeal.BiasRow
import proofs.«143857_j6597069766680_1_alg».proof.Proof.RefValue

noncomputable section

namespace Cert.Proof

open Idealize.ShloMosaic Idealize.ShloMosaic.TcCoe Idealize.SL.Sem

/-! ## The frames -/

theorem frame_k : Cert.frame_Kernel (hKernel := Cert.Kernel.Gen.facts) (hPre_finite_inputs := Cert.Pre_finite_inputs.Gen.facts) :=
  fun m ρ _ => Cert.Kernel.Two.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Two.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-! ## The two results are one function of the arguments -/

section Value

open Cert.KernelIdeal Cert.KernelIdeal.Two

/-- The kernel's result array after the run: the aggregation of the affine layer of the launch arguments. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    W3 (F := Ideal) m ρ c (Proc.devRef .tc main_v2)
      = Cert.Spec.agg (m ((c.tc : Thread nD τ).loc main_arg1))
          (Cert.Spec.hidden (m ((c.tc : Thread nD τ).loc main_arg0)) (m ((c.tc : Thread nD τ).loc main_arg2))
            (Cert.Spec.biasRow (m ((c.tc : Thread nD τ).loc main_arg3)))) := by
  rw [W3_main_v2, agg_value, V2_main_arg1, V2_main_v1, linear_value, V1_main_arg0, V1_main_arg2, V1_main_v0, reshape_bias]

end Value

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.agg (m ((c.tc : Thread Cert.KernelIdeal.nD Cert.KernelIdeal.τ).loc Cert.KernelIdeal.main_arg1))
      (Cert.Spec.hidden (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (Cert.Spec.biasRow (m ((c.tc : Thread Cert.KernelIdeal.nD Cert.KernelIdeal.τ).loc Cert.KernelIdeal.main_arg3)))), ?_, ?_⟩
  · refine (θ_run Cert.KernelIdeal.defs _ _).mono (fun r h c => ⟨?_, ?_, ?_, ?_, ?_⟩) (Cert.KernelIdeal.Two.run_all (F := Ideal) m ρ)
    · exact (h c _ (Cert.KernelIdeal.Two.mem_uc Cert.KernelIdeal.main_v2 (by decide))).trans (kernel_result m ρ c)
    · exact (h c _ (Cert.KernelIdeal.Two.mem_uc Cert.KernelIdeal.main_arg0 (by decide))).trans (Cert.KernelIdeal.Two.W3_main_arg0 m ρ c)
    · exact (h c _ (Cert.KernelIdeal.Two.mem_uc Cert.KernelIdeal.main_arg1 (by decide))).trans (Cert.KernelIdeal.Two.W3_main_arg1 m ρ c)
    · exact (h c _ (Cert.KernelIdeal.Two.mem_uc Cert.KernelIdeal.main_arg2 (by decide))).trans (Cert.KernelIdeal.Two.W3_main_arg2 m ρ c)
    · exact (h c _ (Cert.KernelIdeal.Two.mem_uc Cert.KernelIdeal.main_arg3 (by decide))).trans (Cert.KernelIdeal.Two.W3_main_arg3 m ρ c)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2, Cert.ReferenceIdeal.Read.val_main_v4_eq]
    exact Cert.ReferenceIdeal.RefValue.ref_value _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
